-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2 : Shape := ⟨3, ![8, 1024, 2]⟩
abbrev S8x512 : Shape := ⟨2, ![8, 512]⟩
abbrev S8x512x2 : Shape := ⟨3, ![8, 512, 2]⟩
abbrev S_ : Shape := ⟨0, ![]⟩

class Facts : Prop where
  bcast_S_S8x1024x2 : S_.BroadcastsInDim S8x1024x2 (![] : Fin 0 → Fin S8x1024x2.rank)
  reducesTo_S8x1024x2_S_d0_1_2 : S8x1024x2.ReducesTo [0, 1, 2] S_
  h_S_ : 0 < S_.numel
  bcast_S_S8x512x2 : S_.BroadcastsInDim S8x512x2 (![] : Fin 0 → Fin S8x512x2.rank)
  reducesTo_S8x512x2_S_d0_1_2 : S8x512x2.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v15 : IVec S8x512 1) (main_c_5 : IVec S_ 1) : IVec S_ 1 :=
  let main_v16 : IVec S_ 1 := (fun x v => Host.reduce IntOp.andi x v reducesTo_S8x512_S_d0_1 h_S_) main_v15 main_c_5
  let main_v17 : IVec S_ 1 := andi main_v13 main_v16
  let main_c_6 : IVec S_ 32 := constantI S_ 32 2#32
  let main_v18 : IVec S8x512 32 := broadcastInDim S8x512 ![] bcast_S_S8x512 main_c_6
  let main_v19 : IVec S8x512 1 := cmpi .slt main_arg2 main_v18
  let main_c_7 : IVec S_ 1 := constantI S_ 1 1#1
  let main_v20 : IVec S_ 1 := (fun x v => Host.reduce IntOp.andi x v reducesTo_S8x512_S_d0_1 h_S_) main_v19 main_c_7
  let main_v21 : IVec S_ 1 := andi main_v17 main_v20
  main_v21

def fn {F : FTy → Type} [FloatOps F] (main_arg0 : FVec F S8x1024x2 .f32) (main_arg1 : FVec F S8x1024x2 .f32) (main_arg2 : IVec S8x512 32) (main_arg3 : FVec F S8x512x2 .f32) : IVec S_ 1 :=
  let main_v0 : FVec F S8x1024x2 .f32 := Host.absf main_arg0
  let main_cst : FVec F S_ .f32 := constant S_ .f32 0x7F800000#32
  let main_v1 : FVec F S8x1024x2 .f32 := broadcastInDim S8x1024x2 ![] bcast_S_S8x1024x2 main_cst
  let main_v2 : IVec S8x1024x2 1 := cmpf .olt main_v0 main_v1
  let main_c : IVec S_ 1 := constantI S_ 1 1#1
  let main_v3 : IVec S_ 1 := (fun x v => Host.reduce IntOp.andi x v reducesTo_S8x1024x2_S_d0_1_2 h_S_) main_v2 main_c
  let main_v4 : FVec F S8x1024x2 .f32 := Host.absf main_arg1
  let main_cst_0 : FVec F S_ .f32 := constant S_ .f32 0x7F800000#32
  let main_v5 : FVec F S8x1024x2 .f32 := broadcastInDim S8x1024x2 ![] bcast_S_S8x1024x2 main_cst_0
  let main_v6 : IVec S8x1024x2 1 := cmpf .olt main_v4 main_v5
  let main_c_1 : IVec S_ 1 := constantI S_ 1 1#1
  let main_v7 : IVec S_ 1 := (fun x v => Host.reduce IntOp.andi x v reducesTo_S8x1024x2_S_d0_1_2 h_S_) main_v6 main_c_1
  let main_v8 : IVec S_ 1 := andi main_v3 main_v7
  let main_v9 : FVec F S8x512x2 .f32 := Host.absf main_arg3
  let main_cst_2 : FVec F S_ .f32 := constant S_ .f32 0x7F800000#32
  let main_v10 : FVec F S8x512x2 .f32 := broadcastInDim S8x512x2 ![] bcast_S_S8x512x2 main_cst_2
  let main_v11 : IVec S8x512x2 1 := cmpf .olt main_v9 main_v10
  let main_c_3 : IVec S_ 1 := constantI S_ 1 1#1
  let main_v12 : IVec S_ 1 := (fun x v => Host.reduce IntOp.andi x v reducesTo_S8x512x2_S_d0_1_2 h_S_) main_v11 main_c_3
  let main_v13 : IVec S_ 1 := andi main_v8 main_v12
  let main_c_4 : IVec S_ 32 := constantI S_ 32 0#32
  let main_v14 : IVec S8x512 32 := broadcastInDim S8x512 ![] bcast_S_S8x512 main_c_4
  let main_v15 : IVec S8x512 1 := cmpi .sge main_arg2 main_v14
  let main_c_5 : IVec S_ 1 := constantI S_ 1 1#1
  fn_part1 (F := F) main_arg2 main_v13 main_v15 main_c_5
-- ==== Kernel.lean ====
abbrev S8x1024x2 : Shape := ⟨3, ![8, 1024, 2]⟩
abbrev S8x512 : Shape := ⟨2, ![8, 512]⟩
abbrev S8x512x2 : Shape := ⟨3, ![8, 512, 2]⟩
abbrev S8192x2 : Shape := ⟨2, ![8192, 2]⟩
abbrev S4096 : Shape := ⟨1, ![4096]⟩
abbrev S4096x2 : Shape := ⟨2, ![4096, 2]⟩
abbrev S4096x1 : Shape := ⟨2, ![4096, 1]⟩
abbrev S_ : Shape := ⟨0, ![]⟩
abbrev S1x4096 : Shape := ⟨2, ![1, 4096]⟩
abbrev S3x4096 : Shape := ⟨2, ![3, 4096]⟩
abbrev S8192x4096 : Shape := ⟨2, ![8192, 4096]⟩
abbrev S1024x2 : Shape := ⟨2, ![1024, 2]⟩
abbrev S3x2048 : Shape := ⟨2, ![3, 2048]⟩
abbrev S1024x2048 : Shape := ⟨2, ![1024, 2048]⟩
abbrev S1024x1 : Shape := ⟨2, ![1024, 1]⟩
abbrev S1x2048 : Shape := ⟨2, ![1, 2048]⟩
abbrev S8x1024x4096 : Shape := ⟨3, ![8, 1024, 4096]⟩

abbrev nBuf : Space → Nat
  | .hbm => 25
  | .vmem => 8
  | .smem => 0
  | _ => 0

abbrev bufTy : (tb : Table) → Fin (tcTables nBuf tb) → BufTy
  | .hbm, ⟨0, _⟩ => ⟨S8x1024x2, .f32⟩
  | .hbm, ⟨1, _⟩ => ⟨S8x1024x2, .f32⟩
  | .hbm, ⟨2, _⟩ => ⟨S8x512, .i32⟩
  | .hbm, ⟨3, _⟩ => ⟨S8x512x2, .f32⟩
  | .hbm, ⟨4, _⟩ => ⟨S8192x2, .f32⟩
  | .hbm, ⟨5, _⟩ => ⟨S8192x2, .f32⟩
  | .hbm, ⟨6, _⟩ => ⟨S4096, .i32⟩
  | .hbm, ⟨7, _⟩ => ⟨S4096, .f32⟩
  | .hbm, ⟨8, _⟩ => ⟨S4096x2, .f32⟩
  | .hbm, ⟨9, _⟩ => ⟨S4096x1, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S3x4096, .f32⟩
  | .hbm, ⟨23, _⟩ => ⟨S8192x4096, .f32⟩
  | .hbm, ⟨24, _⟩ => ⟨S8x1024x4096, .f32⟩
  | .local _ .vmem, ⟨0, _⟩ => ⟨S1024x2, .f32⟩
  | .local _ .vmem, ⟨1, _⟩ => ⟨S1024x2, .f32⟩
  | .local _ .vmem, ⟨2, _⟩ => ⟨S1024x2, .f32⟩
  | .local _ .vmem, ⟨3, _⟩ => ⟨S1024x2, .f32⟩
  | .local _ .vmem, ⟨4, _⟩ => ⟨S3x2048, .f32⟩
  | .local _ .vmem, ⟨5, _⟩ => ⟨S3x2048, .f32⟩
  | .local _ .vmem, ⟨6, _⟩ => ⟨S1024x2048, .f32⟩
  | .local _ .vmem, ⟨7, _⟩ => ⟨S1024x2048, .f32⟩
  | _, _ => ⟨S8x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x1024x2_S8192x2 : S8x1024x2.ShapeCasts S8192x2
  shapeCasts_S8x512_S4096 : S8x512.ShapeCasts S4096
  shapeCasts_S8x512x2_S4096x2 : S8x512x2.ShapeCasts S4096x2
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  slices_S4096x2_S4096x1_0_1 : S4096x2.Slices ![0, 1] S4096x1
  bcast_S4096_S1x4096_1 : S4096.BroadcastsInDim S1x4096 (![1] : Fin 1 → Fin S1x4096.rank)
  concatenates_S1x4096_S1x4096_S1x4096_S3x4096_d0 : Shape.Concatenates [S1x4096, S1x4096, S1x4096] S3x4096 0
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S1024x2_o0_0_S1024x1 : S1024x2.Slices ![0, 0] S1024x1
  slices_S1024x2_o0_1_S1024x1 : S1024x2.Slices ![0, 1] S1024x1
  inb_S3x2048_S1x2048_0_0 : ∀ a, (![0, 0] : Fin 2 → Nat) a + S1x2048.size a ≤ S3x2048.size a
  h_S1x2048 : 0 < S1x2048.numel
  shapeCasts_S1x2048_S1x2048 : S1x2048.ShapeCasts S1x2048
  inb_S3x2048_S1x2048_1_0 : ∀ a, (![1, 0] : Fin 2 → Nat) a + S1x2048.size a ≤ S3x2048.size a
  inb_S3x2048_S1x2048_2_0 : ∀ a, (![2, 0] : Fin 2 → Nat) a + S1x2048.size a ≤ S3x2048.size a
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S8192x4096_S8x1024x4096 : S8192x4096.ShapeCasts S8x1024x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2048.size a ≤ S3x4096.size a
  hwx0_2 : ∀ i : grid0.Coords, EltTy.bits .f32 = 32 ∨ (Rect.block (s := S3x4096) S3x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

abbrev win0_0 : Pipeline.Window sig grid0 :=
  Pipeline.Window.ofSpec (Memref.whole main_v0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S3x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x2 : Shape := ⟨3, ![8, 1024, 2]⟩
abbrev S8x512 : Shape := ⟨2, ![8, 512]⟩
abbrev S8x512x2 : Shape := ⟨3, ![8, 512, 2]⟩
abbrev S8192x2 : Shape := ⟨2, ![8192, 2]⟩
abbrev S_ : Shape := ⟨0, ![]⟩
abbrev S4096 : Shape := ⟨1, ![4096]⟩
abbrev S4096x2 : Shape := ⟨2, ![4096, 2]⟩
abbrev S4096x1 : Shape := ⟨2, ![4096, 1]⟩
abbrev S8192x4096 : Shape := ⟨2, ![8192, 4096]⟩
abbrev S8192x1x2 : Shape := ⟨3, ![8192, 1, 2]⟩
abbrev S1x4096x2 : Shape := ⟨3, ![1, 4096, 2]⟩
abbrev S8192x4096x2 : Shape := ⟨3, ![8192, 4096, 2]⟩
abbrev S8x1024x4096 : Shape := ⟨3, ![8, 1024, 4096]⟩

abbrev nBuf : Space → Nat
  | .hbm => 84
  | .vmem => 0
  | .smem => 0
  | _ => 0

abbrev bufTy : (tb : Table) → Fin (tcTables nBuf tb) → BufTy
  | .hbm, ⟨0, _⟩ => ⟨S8x1024x2, .f32⟩
  | .hbm, ⟨1, _⟩ => ⟨S8x1024x2, .f32⟩
  | .hbm, ⟨2, _⟩ => ⟨S8x512, .i32⟩
  | .hbm, ⟨3, _⟩ => ⟨S8x512x2, .f32⟩
  | .hbm, ⟨4, _⟩ => ⟨S8192x2, .f32⟩
  | .hbm, ⟨5, _⟩ => ⟨S8192x2, .f32⟩
  | .hbm, ⟨6, _⟩ => ⟨S8192x2, .f32⟩
  | .hbm, ⟨7, _⟩ => ⟨S_, .f32⟩
  | .hbm, ⟨8, _⟩ => ⟨S8192x2, .f32⟩
  | .hbm, ⟨9, _⟩ => ⟨S8192x2, .f32⟩
  | .hbm, ⟨10, _⟩ => ⟨S_, .f32⟩
  | .hbm, ⟨11, _⟩ => ⟨S8192x2, .f32⟩
  | .hbm, ⟨12, _⟩ => ⟨S8192x2, .f32⟩
  | .hbm, ⟨13, _⟩ => ⟨S8192x2, .f32⟩
  | .hbm, ⟨14, _⟩ => ⟨S4096, .i32⟩
  | .hbm, ⟨15, _⟩ => ⟨S4096x2, .f32⟩
  | .hbm, ⟨16, _⟩ => ⟨S_, .f32⟩
  | .hbm, ⟨17, _⟩ => ⟨S8192x2, .f32⟩
  | .hbm, ⟨18, _⟩ => ⟨S8192x2, .f32⟩
  | .hbm, ⟨19, _⟩ => ⟨S_, .f32⟩
  | .hbm, ⟨20, _⟩ => ⟨S8192x2, .f32⟩
  | .hbm, ⟨21, _⟩ => ⟨S8192x2, .f32⟩
  | .hbm, ⟨22, _⟩ => ⟨S_, .f32⟩
  | .hbm, ⟨23, _⟩ => ⟨S8192x2, .f32⟩
  | .hbm, ⟨24, _⟩ => ⟨S8192x2, .f32⟩
  | .hbm, ⟨25, _⟩ => ⟨S_, .f32⟩
  | .hbm, ⟨26, _⟩ => ⟨S8192x2, .f32⟩
  | .hbm, ⟨27, _⟩ => ⟨S8192x2, .f32⟩
  | .hbm, ⟨28, _⟩ => ⟨S8192x2, .f32⟩
  | .hbm, ⟨29, _⟩ => ⟨S8192x2, .f32⟩
  | .hbm, ⟨30, _⟩ => ⟨S8192x2, .f32⟩
  | .hbm, ⟨31, _⟩ => ⟨S_, .f32⟩
  | .hbm, ⟨32, _⟩ => ⟨S8192x2, .f32⟩
  | .hbm, ⟨33, _⟩ => ⟨S8192x2, .f32⟩
  | .hbm, ⟨34, _⟩ => ⟨S_, .f32⟩
  | .hbm, ⟨35, _⟩ => ⟨S8192x2, .f32⟩
  | .hbm, ⟨36, _⟩ => ⟨S8192x2, .f32⟩
  | .hbm, ⟨37, _⟩ => ⟨S_, .f32⟩
  | .hbm, ⟨38, _⟩ => ⟨S8192x2, .f32⟩
  | .hbm, ⟨39, _⟩ => ⟨S8192x2, .f32⟩
  | .hbm, ⟨40, _⟩ => ⟨S_, .f32⟩
  | .hbm, ⟨41, _⟩ => ⟨S8192x2, .f32⟩
  | .hbm, ⟨42, _⟩ => ⟨S8192x2, .f32⟩
  | .hbm, ⟨43, _⟩ => ⟨S8192x2, .f32⟩
  | .hbm, ⟨44, _⟩ => ⟨S8192x2, .f32⟩
  | .hbm, ⟨45, _⟩ => ⟨S8192x2, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S8192x4096, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S8192x4096, .f32⟩
  | .hbm, ⟨64, _⟩ => ⟨S8192x4096, .f32⟩
  | .hbm, ⟨65, _⟩ => ⟨S8192x1x2, .f32⟩
  | .hbm, ⟨66, _⟩ => ⟨S1x4096x2, .f32⟩
  | .hbm, ⟨67, _⟩ => ⟨S8192x4096x2, .f32⟩
  | .hbm, ⟨68, _⟩ => ⟨S8192x4096x2, .f32⟩
  | .hbm, ⟨69, _⟩ => ⟨S8192x4096x2, .f32⟩
  | .hbm, ⟨70, _⟩ => ⟨S8192x4096x2, .f32⟩
  | .hbm, ⟨71, _⟩ => ⟨S_, .f32⟩
  | .hbm, ⟨72, _⟩ => ⟨S8192x4096, .f32⟩
  | .hbm, ⟨73, _⟩ => ⟨S_, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8x1024x4096, .f32⟩
  | _, _ => ⟨S8x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  shapeCasts_S8x1024x2_S8192x2 : S8x1024x2.ShapeCasts S8192x2
  bcast_S_S8192x2 : S_.BroadcastsInDim S8192x2 (![] : Fin 0 → Fin S8192x2.rank)
  shapeCasts_S8x512_S4096 : S8x512.ShapeCasts S4096
  shapeCasts_S8x512x2_S4096x2 : S8x512x2.ShapeCasts S4096x2
  bcast_S_S4096 : S_.BroadcastsInDim S4096 (![] : Fin 0 → Fin S4096.rank)
  bcast_S4096_S4096x1_0 : S4096.BroadcastsInDim S4096x1 (![0] : Fin 1 → Fin S4096x1.rank)
  bcast_S8192x2_S8192x1x2_0_2 : S8192x2.BroadcastsInDim S8192x1x2 (![0, 2] : Fin 2 → Fin S8192x1x2.rank)
  bcast_S4096x2_S1x4096x2_1_2 : S4096x2.BroadcastsInDim S1x4096x2 (![1, 2] : Fin 2 → Fin S1x4096x2.rank)
  bcast_S8192x1x2_S8192x4096x2_0_1_2 : S8192x1x2.BroadcastsInDim S8192x4096x2 (![0, 1, 2] : Fin 3 → Fin S8192x4096x2.rank)
  bcast_S1x4096x2_S8192x4096x2_0_1_2 : S1x4096x2.BroadcastsInDim S8192x4096x2 (![0, 1, 2] : Fin 3 → Fin S8192x4096x2.rank)
  reducesTo_S8192x4096x2_S8192x4096_d2 : S8192x4096x2.ReducesTo [2] S8192x4096
  h_S_ : 0 < S_.numel
  bcast_S_S8192x4096 : S_.BroadcastsInDim S8192x4096 (![] : Fin 0 → Fin S8192x4096.rank)
  shapeCasts_S8192x4096_S8x1024x4096 : S8192x4096.ShapeCasts S8x1024x4096
  gather_S8192x2_S4096x1_S8192x4096_0_1_n_n_1_1_81921_wf : GatherDims.WF S8192x2 S4096x1 S8192x4096 [0] [1] [] [1] [] 1 ![8192, 1]

variable [Facts₀]

def gather_S8192x2_S4096x1_S8192x4096_0_1_n_n_1_1_81921 : GatherDims S8192x2 S4096x1 S8192x4096 where
  offsetDims := [0]
  collapsedSliceDims := [1]
  operandBatchingDims := []
  startIndicesBatchingDims := []
  startIndexMap := [1]
  indexVectorDim := 1
  sliceSizes := ![8192, 1]
  wf := gather_S8192x2_S4096x1_S8192x4096_0_1_n_n_1_1_81921_wf

class Facts : Prop extends Facts₀ where

variable [Facts]
-- ==== Proof.CostFrameBits.lean ====
/-
  The frame of the cost-matrix program: @main is nineteen host operations that lay out the kernel's operands (the two
  prediction arrays flattened to rows, and the three-row column table `[class id; 10·x; 10·y]` of the targets, a
  concatenation), ONE launch of the cost kernel over an 8 × 2 grid, and one host reshape of the result.

  The kernel body keeps nothing between grid points: at a point it loads its two row blocks whole and the three rows
  of its column block, and stores one whole output block, a pure function `costBlock` of what it loaded. So the
  proof data of the launch is: every input window's staging buffer holds its block of the array the launch found,
  and the output window's holds `costBlock` of the three input blocks. The body's triple is one symbolic run; the
  launch theorem for a region between host operations turns it into a run of @main whose post names every array,
  and the four argument arrays, which no operation writes, end as launched.
-/
import proofs.«403500_j6390911336916_3_alg».proof.Proof.Gen.Kernel.Launch
import proofs.«403500_j6390911336916_3_alg».proof.Proof.Gen.Kernel.Skeleton
import proofs.«403500_j6390911336916_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.CostFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The TensorCore buffers' contents when the launch is entered: the memory after the nineteen host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch touches the launch's arrays and the other unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the launch's arrays (it writes the final result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes an argument array: the launch finds each as launched. -/
theorem V_arg (r : Ref sig .tc) (hr : r = main_arg0 ∨ r = main_arg1 ∨ r = main_arg2 ∨ r = main_arg3) (c : Dev nD) :
    V m c r = m ((c : Thread nD τ).loc r) := by
  rcases hr with rfl | rfl | rfl | rfl <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: each argument array ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg m main_arg0 (by simp) c
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg m main_arg1 (by simp) c
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg m main_arg2 (by simp) c
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg m main_arg3 (by simp) c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since it was fetched. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- The argument arrays are no window's array, so a run to the launch theorem's post leaves them as the reshape
    after the launch leaves them: as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c),
     ((h c).2 main_arg2 (Pipeline.mem_restRefs_of main_arg2 (by decide) (by decide))).trans (W_arg2 m dats c),
     ((h c).2 main_arg3 (Pipeline.mem_restRefs_of main_arg3 (by decide) (by decide))).trans (W_arg3 m dats c)⟩) h

/-! ## The body's accesses and what it stores -/

/-- A whole row block. -/
abbrev rRows : Rect S1024x2 := Rect.unit (s := S1024x2) ![0, 0] S1024x2.size inb_S1024x2_S1024x2_0_0
/-- Row 0, 1, 2 of the column block. -/
abbrev rCol0 : Rect S3x2048 := Rect.unit (s := S3x2048) ![0, 0] S1x2048.size inb_S3x2048_S1x2048_0_0
abbrev rCol1 : Rect S3x2048 := Rect.unit (s := S3x2048) ![1, 0] S1x2048.size inb_S3x2048_S1x2048_1_0
abbrev rCol2 : Rect S3x2048 := Rect.unit (s := S3x2048) ![2, 0] S1x2048.size inb_S3x2048_S1x2048_2_0
/-- The whole output block. -/
abbrev rOut : Rect S1024x2048 := Rect.unit (s := S1024x2048) ![0, 0] S1024x2048.size inb_S1024x2048_S1024x2048_0_0

/-- The value the body stores, from its loads: the class-logit block `x0`, the point block `x1`, the column block `x2`. -/
def costPay (x0 x1 : Vec F S1024x2 .f32) (x2 : Vec F S3x2048 .f32) : FVec F S1024x2048 .f32 :=
  k0_pay1 (k0_pay5 (View.ld x1 rRows)) (k0_pay6 (View.ld x1 rRows)) (k0_pay7 (View.ld x0 rRows)) (k0_pay8 (View.ld x0 rRows))
    (k0_pay9 (View.ld x2 rCol0)) (View.ld x2 rCol1) (View.ld x2 rCol2)

/-- The output window's staging buffer after the body: its one whole-block store. -/
def costBlock (x0 x1 : Vec F S1024x2 .f32) (x2 : Vec F S3x2048 .f32) : Vec F S1024x2048 .f32 :=
  View.canon [⟨rOut, costPay x0 x1 x2⟩]

/-- The one store covers the block. -/
theorem cover_out (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 1000000 in
/-- The kernel body on whole staging memrefs, the inputs' at contents `x0 x1 x2` and the output's at anything, runs to
    the continuation holding the inputs' as they were and the output's at `costBlock x0 x1 x2`. -/
theorem sound_kernel (c : Dev nD) (E : Set ℕ) (i : grid0.Coords) (arg2 : Memref sig .tc .vmem S1024x2 .f32) (harg2 : arg2.IsWhole)
    (arg3 : Memref sig .tc .vmem S1024x2 .f32) (harg3 : arg3.IsWhole) (arg4 : Memref sig .tc .vmem S3x2048 .f32) (harg4 : arg4.IsWhole)
    (arg5 : Memref sig .tc .vmem S1024x2048 .f32) (harg5 : arg5.IsWhole)
    (x0 x1 : Vec F S1024x2 .f32) (x2 : Vec F S3x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (costBlock x0 x1 x2)) -∗ K ⟨⟩))
      ⊢ wp frame (wpE (defs₀ (F := F)) Variants.none c none) E (cc0__cost_kernel i arg2 harg2 arg3 harg3 arg4 harg4 arg5 harg5) K := by
  simp only [cc0__cost_kernel_eq_skeleton]; unfold cc0__cost_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- The proof data of the launch on core `c`: the arrays as the launch finds them; after the body at point `t` each
    input's buffer at its block and the output's at `costBlock` of the three input blocks; nothing else held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => costBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = costBlock (iblk m c 0 t) (iblk m c 1 t) (iblk m c 2 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the launch
    ends at what the proof data gives and every other unscoped buffer as the reshape after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates without a fault and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.CostFrame

end
-- ==== Proof.CostFrameIdeal.lean ====
/-
  The frame of the cost-matrix program: @main is nineteen host operations that lay out the kernel's operands (the two
  prediction arrays flattened to rows, and the three-row column table `[class id; 10·x; 10·y]` of the targets, a
  concatenation), ONE launch of the cost kernel over an 8 × 2 grid, and one host reshape of the result.

  The kernel body keeps nothing between grid points: at a point it loads its two row blocks whole and the three rows
  of its column block, and stores one whole output block, a pure function `costBlock` of what it loaded. So the
  proof data of the launch is: every input window's staging buffer holds its block of the array the launch found,
  and the output window's holds `costBlock` of the three input blocks. The body's triple is one symbolic run; the
  launch theorem for a region between host operations turns it into a run of @main whose post names every array,
  and the four argument arrays, which no operation writes, end as launched.
-/
import proofs.«403500_j6390911336916_3_alg».proof.Proof.Gen.KernelIdeal.Launch
import proofs.«403500_j6390911336916_3_alg».proof.Proof.Gen.KernelIdeal.Skeleton
import proofs.«403500_j6390911336916_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.CostFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The TensorCore buffers' contents when the launch is entered: the memory after the nineteen host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch touches the launch's arrays and the other unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the launch's arrays (it writes the final result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes an argument array: the launch finds each as launched. -/
theorem V_arg (r : Ref sig .tc) (hr : r = main_arg0 ∨ r = main_arg1 ∨ r = main_arg2 ∨ r = main_arg3) (c : Dev nD) :
    V m c r = m ((c : Thread nD τ).loc r) := by
  rcases hr with rfl | rfl | rfl | rfl <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does the reshape after it: each argument array ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg m main_arg0 (by simp) c
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg m main_arg1 (by simp) c
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg m main_arg2 (by simp) c
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg m main_arg3 (by simp) c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since it was fetched. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- The argument arrays are no window's array, so a run to the launch theorem's post leaves them as the reshape
    after the launch leaves them: as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c),
     ((h c).2 main_arg2 (Pipeline.mem_restRefs_of main_arg2 (by decide) (by decide))).trans (W_arg2 m dats c),
     ((h c).2 main_arg3 (Pipeline.mem_restRefs_of main_arg3 (by decide) (by decide))).trans (W_arg3 m dats c)⟩) h

/-! ## The body's accesses and what it stores -/

/-- A whole row block. -/
abbrev rRows : Rect S1024x2 := Rect.unit (s := S1024x2) ![0, 0] S1024x2.size inb_S1024x2_S1024x2_0_0
/-- Row 0, 1, 2 of the column block. -/
abbrev rCol0 : Rect S3x2048 := Rect.unit (s := S3x2048) ![0, 0] S1x2048.size inb_S3x2048_S1x2048_0_0
abbrev rCol1 : Rect S3x2048 := Rect.unit (s := S3x2048) ![1, 0] S1x2048.size inb_S3x2048_S1x2048_1_0
abbrev rCol2 : Rect S3x2048 := Rect.unit (s := S3x2048) ![2, 0] S1x2048.size inb_S3x2048_S1x2048_2_0
/-- The whole output block. -/
abbrev rOut : Rect S1024x2048 := Rect.unit (s := S1024x2048) ![0, 0] S1024x2048.size inb_S1024x2048_S1024x2048_0_0

/-- The value the body stores, from its loads: the class-logit block `x0`, the point block `x1`, the column block `x2`. -/
def costPay (x0 x1 : Vec F S1024x2 .f32) (x2 : Vec F S3x2048 .f32) : FVec F S1024x2048 .f32 :=
  k0_pay1 (k0_pay5 (View.ld x1 rRows)) (k0_pay6 (View.ld x1 rRows)) (k0_pay7 (View.ld x0 rRows)) (k0_pay8 (View.ld x0 rRows))
    (k0_pay9 (View.ld x2 rCol0)) (View.ld x2 rCol1) (View.ld x2 rCol2)

/-- The output window's staging buffer after the body: its one whole-block store. -/
def costBlock (x0 x1 : Vec F S1024x2 .f32) (x2 : Vec F S3x2048 .f32) : Vec F S1024x2048 .f32 :=
  View.canon [⟨rOut, costPay x0 x1 x2⟩]

/-- The one store covers the block. -/
theorem cover_out (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 1000000 in
/-- The kernel body on whole staging memrefs, the inputs' at contents `x0 x1 x2` and the output's at anything, runs to
    the continuation holding the inputs' as they were and the output's at `costBlock x0 x1 x2`. -/
theorem sound_kernel (c : Dev nD) (E : Set ℕ) (i : grid0.Coords) (arg2 : Memref sig .tc .vmem S1024x2 .f32) (harg2 : arg2.IsWhole)
    (arg3 : Memref sig .tc .vmem S1024x2 .f32) (harg3 : arg3.IsWhole) (arg4 : Memref sig .tc .vmem S3x2048 .f32) (harg4 : arg4.IsWhole)
    (arg5 : Memref sig .tc .vmem S1024x2048 .f32) (harg5 : arg5.IsWhole)
    (x0 x1 : Vec F S1024x2 .f32) (x2 : Vec F S3x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (costBlock x0 x1 x2)) -∗ K ⟨⟩))
      ⊢ wp frame (wpE (defs₀ (F := F)) Variants.none c none) E (cc0__cost_kernel i arg2 harg2 arg3 harg3 arg4 harg4 arg5 harg5) K := by
  simp only [cc0__cost_kernel_eq_skeleton]; unfold cc0__cost_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- The proof data of the launch on core `c`: the arrays as the launch finds them; after the body at point `t` each
    input's buffer at its block and the output's at `costBlock` of the three input blocks; nothing else held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => costBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = costBlock (iblk m c 0 t) (iblk m c 1 t) (iblk m c 2 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the launch
    ends at what the proof data gives and every other unscoped buffer as the reshape after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates without a fault and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.CostFrame

end
-- ==== Proof.CostSpec.lean ====
/-
  The matching cost of one (prediction, target) pair, as a function of scalars, in the two spellings the
  programs use, and the whole cost array as ONE function of the four argument arrays.

  A prediction row carries two class logits `x0 x1` and a point `(px0, px1)`; a target carries a class id
  and a point `(gx0, gx1)`. With `p = σ(x)` the focal difference of a logit is
  `focal x = ¼ (1 − p)² · (−log (p + ε)) − ¾ p² · (−log (1 − p + ε))`.
  The kernel's entry is `|10 px0 − 10 gx0| + |10 px1 − 10 gx1| + 2 · focal x0 + id · (2 · (focal x1 − focal x0))`
  with the class id read as a real number; the reference's entry is
  `5 · (2 · (|px0 − gx0| + |px1 − gx1|)) + 2 · (pos x_id − neg x_id)`, the logit picked by the id.
  For real scalars and an id in {0, 1} the two are equal: `10 = 5 · 2` distributes over the finite L1 sum,
  and `a + id · (b − a)` is `a` at 0 and `b` at 1.
-/
import Idealize.ShloMosaic.PureOps.Ideal
import Idealize.ShloMosaic.Lib.ValueIdx

noncomputable section

namespace Cert.CostSpec

open Idealize.ShloMosaic Idealize.ShloMosaic.ValueIdx

/-! ## The float words the two programs spell, as extended reals -/

/-- `1.0` -/
abbrev w1 : EReal := Ideal.ofBits .f32 0x3F800000#32
/-- `0.75` -/
abbrev w075 : EReal := Ideal.ofBits .f32 0x3F400000#32
/-- `0.25` -/
abbrev w025 : EReal := Ideal.ofBits .f32 0x3E800000#32
/-- `ε`, the f32 nearest `1e-8` -/
abbrev wEps : EReal := Ideal.ofBits .f32 0x322BCC77#32
/-- `0.0` -/
abbrev w0 : EReal := Ideal.ofBits .f32 0x00000000#32
/-- `10.0` -/
abbrev w10 : EReal := Ideal.ofBits .f32 0x41200000#32
/-- `2.0` -/
abbrev w2 : EReal := Ideal.ofBits .f32 0x40000000#32
/-- `5.0` -/
abbrev w5 : EReal := Ideal.ofBits .f32 0x40A00000#32

/-- The absolute value as both programs compute it on extended reals. -/
def absE (a : EReal) : EReal := max a (-a)

/-! ## The kernel's spelling -/

/-- The focal difference `pos − neg` of one logit, the kernel's way: `σ` by the logistic operation, squares as
    products, `−log` as `0 − log`. -/
def focal (x : EReal) : EReal :=
  (w025 * ((w1 - Ideal.logistic x) * (w1 - Ideal.logistic x))) * (w0 - Ideal.log (Ideal.logistic x + wEps))
    - (w075 * (Ideal.logistic x * Ideal.logistic x)) * (w0 - Ideal.log ((w1 - Ideal.logistic x) + wEps))

/-- One entry of the kernel's cost block: the scaled L1 distance, twice the class-0 focal difference, and the
    class id times twice the gap to the class-1 focal difference. `tid` is the class id as an extended real. -/
def kEntry (x0 x1 px0 px1 tid gx0 gx1 : EReal) : EReal :=
  ((absE (w10 * px0 - w10 * gx0) + absE (w10 * px1 - w10 * gx1)) + w2 * focal x0) + tid * (w2 * (focal x1 - focal x0))

/-! ## The reference's spelling -/

/-- `σ` the reference's way: `1 / (1 + e^(−x))`. -/
def sigR (x : EReal) : EReal := Ideal.div w1 (w1 + Ideal.exp (-x))
/-- The positive-class focal term of a logit, the reference's way (a square as a power, `−log` as a negation). -/
def posR (x : EReal) : EReal := (w025 * Ideal.pow (w1 - sigR x) w2) * (-(Ideal.log (sigR x + wEps)))
/-- The negative-class focal term of a logit, the reference's way. -/
def negR (x : EReal) : EReal := (w075 * Ideal.pow (sigR x) w2) * (-(Ideal.log ((w1 - sigR x) + wEps)))

/-- One entry of the reference's cost matrix, `xc` the logit the target's class id picks. -/
def rEntry (xc px0 px1 gx0 gx1 : EReal) : EReal :=
  w5 * (w2 * (w0 + (absE (px0 - gx0) + absE (px1 - gx1)))) + w2 * (posR xc - negR xc)

/-! ## The whole array -/

/-- Column `j` of the cost matrix is target `j % 512` of batch `j / 512`. -/
def colB (j : Fin 4096) : Fin 8 := ⟨j.val / 512, by have := j.isLt; omega⟩
def colT (j : Fin 4096) : Fin 512 := ⟨j.val % 512, Nat.mod_lt _ (by decide)⟩

/-- The cost array `[8, 1024, 4096]` as one function of the argument arrays `pred_class`, `pred_points`,
    `gt_class`, `gt_points`: entry `(b, q, j)` is the kernel's entry of prediction `(b, q)` against target `j`. -/
def cost (pc pp : FVec Ideal ⟨3, ![8, 1024, 2]⟩ .f32) (gc : IVec ⟨2, ![8, 512]⟩ 32) (gp : FVec Ideal ⟨3, ![8, 512, 2]⟩ .f32) :
    FVec Ideal ⟨3, ![8, 1024, 4096]⟩ .f32 := fun i =>
  kEntry (pc (ix3 (i 0) (i 1) (0 : Fin 2))) (pc (ix3 (i 0) (i 1) (1 : Fin 2)))
    (pp (ix3 (i 0) (i 1) (0 : Fin 2))) (pp (ix3 (i 0) (i 1) (1 : Fin 2)))
    (((gc (ix2 (colB (i 2)) (colT (i 2)))).toInt : ℝ) : EReal)
    (gp (ix3 (colB (i 2)) (colT (i 2)) (0 : Fin 2))) (gp (ix3 (colB (i 2)) (colT (i 2)) (1 : Fin 2)))

/-! ## The words' values

Each of the eight words denotes a real number. -/

theorem w1_eq : w1 = ((1 : ℝ) : EReal) := by
  simp [Ideal.ofBits, Ideal.ieee, -EReal.coe_mul]; norm_num
theorem w075_eq : w075 = ((3 / 4 : ℝ) : EReal) := by
  simp [Ideal.ofBits, Ideal.ieee, -EReal.coe_mul]; norm_num
theorem w025_eq : w025 = ((1 / 4 : ℝ) : EReal) := by
  simp [Ideal.ofBits, Ideal.ieee, -EReal.coe_mul]; norm_num
theorem w0_eq : w0 = ((0 : ℝ) : EReal) := by
  simp [Ideal.ofBits, Ideal.ieee, -EReal.coe_mul]
theorem w10_eq : w10 = ((10 : ℝ) : EReal) := by
  simp [Ideal.ofBits, Ideal.ieee, -EReal.coe_mul]; norm_num
theorem w2_eq : w2 = ((2 : ℝ) : EReal) := by
  simp [Ideal.ofBits, Ideal.ieee, -EReal.coe_mul]; norm_num
theorem w5_eq : w5 = ((5 : ℝ) : EReal) := by
  simp [Ideal.ofBits, Ideal.ieee, -EReal.coe_mul]; norm_num

/-- `ε` as a real number: the significand `2^23 + 0x2BCC77 = 11258999` at the exponent `100 − 127 − 23 = −50`. -/
def epsR : ℝ := 11258999 / 2 ^ 50

theorem wEps_eq : wEps = ((epsR : ℝ) : EReal) := by
  unfold epsR
  simp [Ideal.ofBits, Ideal.ieee, -EReal.coe_mul]; norm_num

theorem epsR_pos : 0 < epsR := by unfold epsR; positivity

/-- The word with all exponent bits set and a zero mantissa, which the precondition compares absolute values against,
    denotes `+∞`. -/
theorem wInf_eq : Ideal.ofBits .f32 0x7F800000#32 = (⊤ : EReal) := by simp [Ideal.ofBits, Ideal.ieee]

/-! ## The real functions behind the two spellings -/

/-- The logistic function on the reals. -/
def sg (x : ℝ) : ℝ := (1 + Real.exp (-x))⁻¹

theorem sg_pos (x : ℝ) : 0 < sg x := by unfold sg; positivity

theorem sg_lt_one (x : ℝ) : sg x < 1 := by
  unfold sg
  exact inv_lt_one_of_one_lt₀ (by have := Real.exp_pos (-x); linarith)

/-- The focal difference of a real logit. -/
def F (x : ℝ) : ℝ :=
  1 / 4 * ((1 - sg x) * (1 - sg x)) * (-Real.log (sg x + epsR))
    - 3 / 4 * (sg x * sg x) * (-Real.log ((1 - sg x) + epsR))

theorem absE_coe (a : ℝ) : absE (a : EReal) = ((|a| : ℝ) : EReal) := by
  unfold absE
  rw [← EReal.coe_neg, abs_eq_max_neg]
  exact (EReal.coe_strictMono.monotone.map_max).symm

theorem logistic_coe_sg (x : ℝ) : Ideal.logistic (x : EReal) = ((sg x : ℝ) : EReal) := by
  rw [Ideal.logistic_coe]; rfl

theorem log_coe_pos {r : ℝ} (h : 0 < r) : Ideal.log (r : EReal) = ((Real.log r : ℝ) : EReal) := by
  rw [Ideal.log_coe, if_neg (not_le.mpr h)]

/-- The kernel's focal difference of a real logit is the real `F`. -/
theorem focal_coe (x : ℝ) : focal (x : EReal) = ((F x : ℝ) : EReal) := by
  have h1 : 0 < sg x + epsR := add_pos (sg_pos x) epsR_pos
  have h2 : 0 < (1 - sg x) + epsR := add_pos (sub_pos.mpr (sg_lt_one x)) epsR_pos
  unfold focal F
  rw [logistic_coe_sg, w1_eq, w025_eq, w075_eq, w0_eq, wEps_eq]
  rw [← EReal.coe_sub, ← EReal.coe_add, ← EReal.coe_add, log_coe_pos h1, log_coe_pos h2]
  simp only [← EReal.coe_sub, ← EReal.coe_mul]
  rw [EReal.coe_eq_coe_iff]
  ring

/-- The reference's `σ` is the logistic operation. -/
theorem sigR_coe (x : ℝ) : sigR (x : EReal) = ((sg x : ℝ) : EReal) := by
  rw [← logistic_coe_sg]
  unfold sigR
  rw [w1_eq, EReal.coe_one]
  rfl

/-- The reference's focal difference of a real logit is the same real `F`. -/
theorem posR_sub_negR_coe (x : ℝ) : posR (x : EReal) - negR (x : EReal) = ((F x : ℝ) : EReal) := by
  have h1 : 0 < sg x + epsR := add_pos (sg_pos x) epsR_pos
  have h2 : 0 < (1 - sg x) + epsR := add_pos (sub_pos.mpr (sg_lt_one x)) epsR_pos
  unfold posR negR F
  rw [sigR_coe, w1_eq, w025_eq, w075_eq, w2_eq, wEps_eq]
  rw [← EReal.coe_sub, ← EReal.coe_add, ← EReal.coe_add, log_coe_pos h1, log_coe_pos h2,
    Ideal.pow_coe_coe, Ideal.pow_coe_coe, Real.rpow_eq_pow, Real.rpow_eq_pow, Real.rpow_two, Real.rpow_two]
  simp only [← EReal.coe_neg, ← EReal.coe_mul, ← EReal.coe_sub]
  rw [EReal.coe_eq_coe_iff]
  ring

/-- The kernel's entry at real scalars, as one real number. -/
theorem kEntry_coe (x0 x1 px0 px1 t gx0 gx1 : ℝ) :
    kEntry (x0 : EReal) (x1 : EReal) (px0 : EReal) (px1 : EReal) (t : EReal) (gx0 : EReal) (gx1 : EReal)
      = (((|10 * px0 - 10 * gx0| + |10 * px1 - 10 * gx1|) + 2 * F x0 + t * (2 * (F x1 - F x0)) : ℝ) : EReal) := by
  unfold kEntry
  rw [focal_coe, focal_coe, w10_eq, w2_eq]
  simp only [← EReal.coe_mul, ← EReal.coe_sub, absE_coe, ← EReal.coe_add]

/-- The reference's entry at real scalars, as one real number. -/
theorem rEntry_coe (xc px0 px1 gx0 gx1 : ℝ) :
    rEntry (xc : EReal) (px0 : EReal) (px1 : EReal) (gx0 : EReal) (gx1 : EReal)
      = ((5 * (2 * (0 + (|px0 - gx0| + |px1 - gx1|))) + 2 * F xc : ℝ) : EReal) := by
  unfold rEntry
  rw [posR_sub_negR_coe, w5_eq, w2_eq, w0_eq]
  simp only [← EReal.coe_sub, absE_coe, ← EReal.coe_add, ← EReal.coe_mul]

/-- Scaling by ten comes out of the absolute value. -/
theorem abs_ten (a b : ℝ) : |10 * a - 10 * b| = 10 * |a - b| := by
  rw [← mul_sub, abs_mul, abs_of_pos (by norm_num : (0 : ℝ) < 10)]

/-! ## The law joining the two spellings -/

/-- For real scalars and a class id that is the word 0 or the word 1, the kernel's entry is the reference's entry
    at the logit the id picks. -/
theorem kEntry_eq_rEntry (x0 x1 px0 px1 gx0 gx1 : ℝ) (c : BitVec 32) (hc : c = 0#32 ∨ c = 1#32) :
    kEntry (x0 : EReal) (x1 : EReal) (px0 : EReal) (px1 : EReal) (((c.toInt : ℝ)) : EReal) (gx0 : EReal) (gx1 : EReal)
      = rEntry (if c = 0#32 then (x0 : EReal) else (x1 : EReal)) (px0 : EReal) (px1 : EReal) (gx0 : EReal) (gx1 : EReal) := by
  rcases hc with rfl | rfl
  · have hz : (((0#32 : BitVec 32).toInt : ℝ)) = 0 := by norm_num
    rw [if_pos rfl, hz, kEntry_coe, rEntry_coe, EReal.coe_eq_coe_iff, abs_ten, abs_ten]
    ring
  · have ho : (((1#32 : BitVec 32).toInt : ℝ)) = 1 := by norm_num
    rw [if_neg (by decide), ho, kEntry_coe, rEntry_coe, EReal.coe_eq_coe_iff, abs_ten, abs_ten]
    ring

end Cert.CostSpec

end
-- ==== Proof.CostPay.lean ====
/-
  The value the cost kernel stores at one entry of its output block, from the entries of the blocks it loaded.

  The body's arithmetic is the skeleton's payload: elementwise operations on [1024, 2] blocks (the logistic, products,
  a logarithm), column slices [1024, 1] of them, rows [1, 2048] of the column block, and broadcasts of columns and
  rows to the [1024, 2048] output block. At entry `(p, q)` a broadcast column reads its row `p` and a broadcast row
  its column `q`, so the entry is `CostSpec.kEntry` of row `p`'s two logits and point and of column `q`'s class id
  and scaled point — with the target's point already scaled by ten, which is how the column block holds it.
-/
import proofs.«403500_j6390911336916_3_alg».proof.Proof.Gen.KernelIdeal.Skeleton
import proofs.«403500_j6390911336916_3_alg».proof.Proof.CostSpec
import Idealize.ShloMosaic.Lib.Pipeline.Value
import Idealize.ShloMosaic.Lib.ValueIdx
import Idealize.ShloMosaic.Lib.ValueLayout

noncomputable section

namespace Cert.KernelIdeal.CostPay

open Idealize.ShloMosaic Idealize.ShloMosaic.ValueIdx Cert.KernelIdeal Cert.KernelIdeal.Gen Cert.CostSpec

/-- The kernel's entry with the target's point as the column block holds it, already scaled: `tx = 10 · gx`. -/
def kE (x0 x1 px0 px1 tid tx0 tx1 : EReal) : EReal :=
  ((absE (w10 * px0 - tx0) + absE (w10 * px1 - tx1)) + w2 * focal x0) + tid * (w2 * (focal x1 - focal x0))

/-- `kEntry` is `kE` at the scaled point. -/
theorem kEntry_eq_kE (x0 x1 px0 px1 tid gx0 gx1 : EReal) :
    kEntry x0 x1 px0 px1 tid gx0 gx1 = kE x0 x1 px0 px1 tid (w10 * gx0) (w10 * gx1) := rfl

/-! ## The layout operations at an entry -/

/-- A column `[a, 1]` broadcast over `b` columns reads, at `(p, c)`, the column's entry in row `p`. -/
theorem broadcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of a `[1024, 2]` block, cut out as a `[1024, 1]` block, holds in row `p` the block's entry `(p, k)`. -/
theorem col_apply {α : Type} (k : Fin 2) (x : S1024x2.Idx → α) (h : S1024x2.Slices ![0, k.val] S1024x1) (p : Fin 1024) :
    extractStridedSlice S1024x1 ![0, k.val] x h (ix2 p (0 : Fin 1)) = x (ix2 p k) :=
  slice2_axis1_apply k.val x h p (0 : Fin 1) k rfl

/-! ## The payloads at an entry -/

/-- The elementwise chain on the logit block is the focal difference of each entry. -/
theorem pay2_apply (v0 : Vec Ideal S1024x2 .f32) (i : S1024x2.Idx) : k0_pay2 (F := Ideal) v0 i = focal (v0 i) := by
  unfold k0_pay2
  simp only [shapeCast_self]
  rfl

/-- Column 0 of the focal block. -/
theorem pay3_apply (v0 : Vec Ideal S1024x2 .f32) (p : Fin 1024) :
    k0_pay3 (F := Ideal) v0 (ix2 p (0 : Fin 1)) = focal (v0 (ix2 p (0 : Fin 2))) := by
  unfold k0_pay3
  exact (col_apply (0 : Fin 2) (k0_pay2 v0) slices_S1024x2_o0_0_S1024x1 p).trans (pay2_apply v0 _)

/-- The point block's column 0, scaled by ten. -/
theorem pay5_apply (v27 : Vec Ideal S1024x2 .f32) (p : Fin 1024) :
    k0_pay5 (F := Ideal) v27 (ix2 p (0 : Fin 1)) = w10 * v27 (ix2 p (0 : Fin 2)) := by
  unfold k0_pay5 k0_pay4
  simp only [shapeCast_self]
  exact congrArg (fun t => w10 * t) (col_apply (0 : Fin 2) v27 slices_S1024x2_o0_0_S1024x1 p)

/-- The point block's column 1, scaled by ten. -/
theorem pay6_apply (v27 : Vec Ideal S1024x2 .f32) (p : Fin 1024) :
    k0_pay6 (F := Ideal) v27 (ix2 p (0 : Fin 1)) = w10 * v27 (ix2 p (1 : Fin 2)) := by
  unfold k0_pay6 k0_pay4
  simp only [shapeCast_self]
  exact congrArg (fun t => w10 * t) (col_apply (1 : Fin 2) v27 slices_S1024x2_o0_1_S1024x1 p)

/-- Twice the class-0 focal difference. -/
theorem pay7_apply (v0 : Vec Ideal S1024x2 .f32) (p : Fin 1024) :
    k0_pay7 (F := Ideal) v0 (ix2 p (0 : Fin 1)) = w2 * focal (v0 (ix2 p (0 : Fin 2))) := by
  unfold k0_pay7
  exact congrArg (fun t => w2 * t) (pay3_apply v0 p)

/-- Twice the gap from the class-0 to the class-1 focal difference. -/
theorem pay8_apply (v0 : Vec Ideal S1024x2 .f32) (p : Fin 1024) :
    k0_pay8 (F := Ideal) v0 (ix2 p (0 : Fin 1))
      = w2 * (focal (v0 (ix2 p (1 : Fin 2))) - focal (v0 (ix2 p (0 : Fin 2)))) := by
  unfold k0_pay8
  have h1 : extractStridedSlice S1024x1 ![0, 1] (k0_pay2 (F := Ideal) v0) slices_S1024x2_o0_1_S1024x1 (ix2 p (0 : Fin 1))
      = focal (v0 (ix2 p (1 : Fin 2))) :=
    (col_apply (1 : Fin 2) (k0_pay2 v0) slices_S1024x2_o0_1_S1024x1 p).trans (pay2_apply v0 _)
  exact congrArg (fun t => w2 * t) (congrArg₂ (fun a b : EReal => a - b) h1 (pay3_apply v0 p))

/-- The class-id row as loaded. -/
theorem pay9_eq (v39 : Vec Ideal S1x2048 .f32) : k0_pay9 (F := Ideal) v39 = v39 := by
  unfold k0_pay9
  exact shapeCast_self v39 _

/-- The stored block at `(p, q)`, from the four columns' row `p` and the three rows' column `q`. -/
theorem pay1_apply (v31 v34 v36 v38 : FVec Ideal S1024x1 .f32) (v40 : FVec Ideal S1x2048 .f32)
    (v41 v43 : Vec Ideal S1x2048 .f32) (p : Fin 1024) (q : Fin 2048) :
    k0_pay1 (F := Ideal) v31 v34 v36 v38 v40 v41 v43 (ix2 p q)
      = ((absE (v31 (ix2 p (0 : Fin 1)) - v41 (ix2 (0 : Fin 1) q)) + absE (v34 (ix2 p (0 : Fin 1)) - v43 (ix2 (0 : Fin 1) q)))
          + v36 (ix2 p (0 : Fin 1))) + v40 (ix2 (0 : Fin 1) q) * v38 (ix2 p (0 : Fin 1)) := by
  unfold k0_pay1
  simp only [shapeCast_self]
  show ((absE (broadcastTo S1024x2048 v31 broadcasts_S1024x1_S1024x2048 (ix2 p q)
            - broadcastTo S1024x2048 v41 broadcasts_S1x2048_S1024x2048 (ix2 p q))
          + absE (broadcastTo S1024x2048 v34 broadcasts_S1024x1_S1024x2048 (ix2 p q)
            - broadcastTo S1024x2048 v43 broadcasts_S1x2048_S1024x2048 (ix2 p q)))
        + broadcastTo S1024x2048 v36 broadcasts_S1024x1_S1024x2048 (ix2 p q))
      + broadcastTo S1024x2048 v40 broadcasts_S1x2048_S1024x2048 (ix2 p q)
        * broadcastTo S1024x2048 v38 broadcasts_S1024x1_S1024x2048 (ix2 p q) = _
  rw [broadcastCol_apply v31, broadcastCol_apply v34, broadcastCol_apply v36, broadcastCol_apply v38,
    broadcastTo_1b_ab_apply v40, broadcastTo_1b_ab_apply v41, broadcastTo_1b_ab_apply v43]

/-- Entry `(p, q)` of the stored value: `v0` the loaded class-logit block, `v27` the loaded point block, `v39 v41 v43`
    the three loaded rows of the column block (class ids, scaled x, scaled y). -/
theorem pay_apply (v0 v27 : Vec Ideal S1024x2 .f32) (v39 v41 v43 : Vec Ideal S1x2048 .f32) (p : Fin 1024) (q : Fin 2048) :
    k0_pay1 (F := Ideal) (k0_pay5 v27) (k0_pay6 v27) (k0_pay7 v0) (k0_pay8 v0) (k0_pay9 v39) v41 v43 (ix2 p q)
      = kE (v0 (ix2 p (0 : Fin 2))) (v0 (ix2 p (1 : Fin 2))) (v27 (ix2 p (0 : Fin 2))) (v27 (ix2 p (1 : Fin 2)))
          (v39 (ix2 (0 : Fin 1) q)) (v41 (ix2 (0 : Fin 1) q)) (v43 (ix2 (0 : Fin 1) q)) := by
  rw [pay1_apply, pay5_apply, pay6_apply, pay7_apply, pay8_apply, pay9_eq]
  rfl

end Cert.KernelIdeal.CostPay

end
-- ==== Proof.LibNary3.lean ====
/-
  A host operation with a literal family of THREE operand references (a concatenation of three arrays): its result
  buffer holds the operation's function of the three operands' contents, each read AT ITS OWN reference, so that the
  operands' own results can be rewritten further.
-/
import Idealize.ShloMosaic.Lib.StableHlo.Run

noncomputable section

namespace Idealize.ShloMosaic.StableHlo

open Idealize.ShloMosaic

variable {nD : Nat} {τ : Topo} {sig : RefSig} {Val : EltTy → Type}

/-- The result of a three-operand host operation at its result buffer: `f` of the three operands' contents. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.CostOperands.lean ====
/-
  What the host operations before the launch leave in the kernel's three operand arrays, read one entry at a time.

  The class-logit and point arrays [8, 1024, 2] are flattened to [8192, 2]: row `r` is prediction `r % 1024` of batch
  `r / 1024`. The column table [3, 4096] is the concatenation of three rows over the flattened targets (column `j` is
  target `j % 512` of batch `j / 512`): the class ids converted to floats, and the two point coordinates each scaled by ten.
-/
import proofs.«403500_j6390911336916_3_alg».proof.Proof.Gen.KernelIdeal.Launch
import proofs.«403500_j6390911336916_3_alg».proof.Proof.CostSpec
import proofs.«403500_j6390911336916_3_alg».proof.Proof.LibNary3
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.CostOperands

open Idealize.ShloMosaic Idealize.ShloMosaic.TcCoe Idealize.ShloMosaic.ValueIdx Cert.KernelIdeal Cert.KernelIdeal.Gen Cert.CostSpec

variable (m : (ℓ : Loc nD τ sig) → Buf (Elt Ideal) ℓ)

/-- The memory after the nineteen host operations before the launch, read at a TensorCore reference. -/
abbrev entry (c : Dev nD) (b : Ref sig .tc) : Buf (Elt Ideal) ((c : Thread nD τ).loc b) :=
  StableHlo.after (List.flatten [hostOps0 (F := Ideal)]) (fun b => m (c, b)) (Proc.devRef .tc b)

/-- Row `r` of the flattened predictions is prediction `r % 1024` of batch `r / 1024`. -/
def rowB (r : Fin 8192) : Fin 8 := ⟨r.val / 1024, by have := r.isLt; omega⟩
def rowQ (r : Fin 8192) : Fin 1024 := ⟨r.val % 1024, Nat.mod_lt _ (by decide)⟩

/-! ## The host operations' results as pure terms

Each operand array is written once by the host operations, so the memory at its reference is the composition of the
operations that lead to it, applied to the argument arrays. -/

open Idealize.ShloMosaic.StableHlo in
/-- The flattened class logits are the reshape of argument 0. -/
theorem logits_eq (c : Dev nD) :
    (entry m c main_v0 : S8192x2.Idx → EReal)
      = shapeCast S8192x2 (m ((c : Thread nD τ).loc main_arg0) : S8x1024x2.Idx → EReal) shapeCasts_S8x1024x2_S8192x2 := by
  dsimp only [entry]
  simp only [hostOps0, List.flatten_cons, List.flatten_nil, List.append_nil, List.cons_append, List.nil_append]
  after_results
  rfl

open Idealize.ShloMosaic.StableHlo in
/-- The flattened points are the reshape of argument 1. -/
theorem points_eq (c : Dev nD) :
    (entry m c main_v1 : S8192x2.Idx → EReal)
      = shapeCast S8192x2 (m ((c : Thread nD τ).loc main_arg1) : S8x1024x2.Idx → EReal) shapeCasts_S8x1024x2_S8192x2 := by
  dsimp only [entry]
  simp only [hostOps0, List.flatten_cons, List.flatten_nil, List.append_nil, List.cons_append, List.nil_append]
  after_results
  rfl

open Idealize.ShloMosaic.StableHlo in
/-- The column table is the stack of three rows: the flattened class ids converted to floats, and the two columns of
    the flattened target points, each multiplied by the constant ten. -/
theorem table_eq (c : Dev nD) :
    (entry m c main_v16 : S3x4096.Idx → EReal)
      = concatenate S3x4096 0
          [⟨S1x4096, broadcastInDim S1x4096 ![1] bcast_S4096_S1x4096_1
              (sitofp (F := Ideal) .f32 (shapeCast S4096 (m ((c : Thread nD τ).loc main_arg2) : S8x512.Idx → BitVec 32) shapeCasts_S8x512_S4096))⟩,
           ⟨S1x4096, broadcastInDim S1x4096 ![1] bcast_S4096_S1x4096_1
              (mulf (F := Ideal) (φ := .f32) (broadcastInDim S4096 ![] bcast_S_S4096 (constant (F := Ideal) S_ .f32 0x41200000#32))
                (shapeCast S4096 (extractStridedSlice S4096x1 ![0, 0]
                  (shapeCast S4096x2 (m ((c : Thread nD τ).loc main_arg3) : S8x512x2.Idx → EReal) shapeCasts_S8x512x2_S4096x2)
                  slices_S4096x2_S4096x1_0_0) shapeCasts_S4096x1_S4096))⟩,
           ⟨S1x4096, broadcastInDim S1x4096 ![1] bcast_S4096_S1x4096_1
              (mulf (F := Ideal) (φ := .f32) (broadcastInDim S4096 ![] bcast_S_S4096 (constant (F := Ideal) S_ .f32 0x41200000#32))
                (shapeCast S4096 (extractStridedSlice S4096x1 ![0, 1]
                  (shapeCast S4096x2 (m ((c : Thread nD τ).loc main_arg3) : S8x512x2.Idx → EReal) shapeCasts_S8x512x2_S4096x2)
                  slices_S4096x2_S4096x1_0_1) shapeCasts_S4096x1_S4096))⟩]
          concatenates_S1x4096_S1x4096_S1x4096_S3x4096_d0 := by
  dsimp only [entry]
  simp only [hostOps0, List.flatten_cons, List.flatten_nil, List.append_nil, List.cons_append, List.nil_append]
  simp only [StableHlo.after_cons, StableHlo.after_nil]
  -- the stacking operation's result, its three operands each read at its own reference …
  rw [nary3_result]
  -- … and every earlier operation's result at its own reference, what was there before at any other
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

/-! ## The pure terms read at an index

A reshape keeps the row-major position: flat row `r` of `[8192, 2]` is `(r / 1024, r % 1024)` of `[8, 1024, 2]`, flat
column `j` of `[4096]` is `(j / 512, j % 512)` of `[8, 512]`. -/

/-- A `[8, 1024, 2]` array flattened to `[8192, 2]`, read at row `r`. -/
theorem flatten_rows_apply (x : S8x1024x2.Idx → EReal) (r : Fin 8192) (k : Fin 2) :
    shapeCast S8192x2 x shapeCasts_S8x1024x2_S8192x2 (ix2 r k) = x (ix3 (rowB r) (rowQ r) k) :=
  shapeCast_apply x shapeCasts_S8x1024x2_S8192x2 (ix2 r k) (ix3 (rowB r) (rowQ r) k)
    (by rewrite [Shape.rowMajor_val_three, Shape.rowMajor_val_two]; have := r.isLt; have := k.isLt
        show (r.val / 1024 * 1024 + r.val % 1024) * 2 + k.val = r.val * 2 + k.val; omega)

/-- The flattened class ids converted to reals and laid out as a row, read at a column. -/
theorem idRow_read (gc : S8x512.Idx → BitVec 32) (j : Fin 4096) :
    (broadcastInDim S1x4096 ![1] bcast_S4096_S1x4096_1
        (sitofp (F := Ideal) .f32 (shapeCast S4096 gc shapeCasts_S8x512_S4096)) : S1x4096.Idx → EReal) (ix2 (0 : Fin 1) j)
      = (((gc (ix2 (colB j) (colT j))).toInt : ℝ) : EReal) := by
  refine (broadcastInDim_apply _ bcast_S4096_S1x4096_1 _ (ix2 (0 : Fin 1) j) (ix1 j) (fun a => match a with
    | ⟨0, _⟩ => by show j.val = if (4096 : Nat) = 1 then 0 else j.val; rw [if_neg (by decide)])).trans ?_
  -- the conversion acts entry by entry
  show (((shapeCast S4096 gc shapeCasts_S8x512_S4096 (ix1 j)).toInt : ℝ) : EReal) = _
  rw [shapeCast_apply gc shapeCasts_S8x512_S4096 (ix1 j) (ix2 (colB j) (colT j))
    (by rewrite [Shape.rowMajor_val_two, Shape.rowMajor_val_one]; have := j.isLt
        show j.val / 512 * 512 + j.val % 512 = j.val; omega)]

/-- Coordinate `k` of the flattened targets (the column slice at offset `o = k`), multiplied by ten and laid out as a
    row, read at a column. -/
theorem coordRow_read (gp : S8x512x2.Idx → EReal) (k : Fin 2) (o : Nat) (hk : k.val = o)
    (hs : S4096x2.Slices ![0, o] S4096x1) (j : Fin 4096) :
    (broadcastInDim S1x4096 ![1] bcast_S4096_S1x4096_1
        (mulf (F := Ideal) (φ := .f32) (broadcastInDim S4096 ![] bcast_S_S4096 (constant (F := Ideal) S_ .f32 0x41200000#32))
          (shapeCast S4096 (extractStridedSlice S4096x1 ![0, o] (shapeCast S4096x2 gp shapeCasts_S8x512x2_S4096x2) hs)
            shapeCasts_S4096x1_S4096)) : S1x4096.Idx → EReal) (ix2 (0 : Fin 1) j)
      = w10 * gp (ix3 (colB j) (colT j) k) := by
  refine (broadcastInDim_apply _ bcast_S4096_S1x4096_1 _ (ix2 (0 : Fin 1) j) (ix1 j) (fun a => match a with
    | ⟨0, _⟩ => by show j.val = if (4096 : Nat) = 1 then 0 else j.val; rw [if_neg (by decide)])).trans ?_
  -- the product acts entry by entry, and the broadcast constant reads ten everywhere
  show w10 * shapeCast S4096 (extractStridedSlice S4096x1 ![0, o] (shapeCast S4096x2 gp shapeCasts_S8x512x2_S4096x2) hs)
      shapeCasts_S4096x1_S4096 (ix1 j) = _
  -- `[4096, 1] → [4096]`: entry `j` is entry `(j, 0)`
  rw [shapeCast_apply _ shapeCasts_S4096x1_S4096 (ix1 j) (ix2 j (0 : Fin 1))
    (by rewrite [Shape.rowMajor_val_two, Shape.rowMajor_val_one]; show j.val * 1 + 0 = j.val; omega)]
  -- the one-column slice at offset `o`: entry `(j, 0)` is entry `(j, k)`
  rw [slice2_axis1_apply o _ hs j (0 : Fin 1) k (by show k.val = o + 0; omega)]
  -- `[8, 512, 2] → [4096, 2]`
  rw [shapeCast_apply gp shapeCasts_S8x512x2_S4096x2 (ix2 j k) (ix3 (colB j) (colT j) k)
    (by rewrite [Shape.rowMajor_val_three, Shape.rowMajor_val_two]; have := j.isLt; have := k.isLt
        show (j.val / 512 * 512 + j.val % 512) * 2 + k.val = j.val * 2 + k.val; omega)]

/-- Row 0 of three stacked one-row arrays is the first of them. -/
theorem stack3_read0 (x0 x1 x2 : S1x4096.Idx → EReal) (j : Fin 4096) :
    concatenate S3x4096 0 [⟨S1x4096, x0⟩, ⟨S1x4096, x1⟩, ⟨S1x4096, x2⟩] concatenates_S1x4096_S1x4096_S1x4096_S3x4096_d0
        (ix2 (0 : Fin 3) j) = x0 (ix2 (0 : Fin 1) j) :=
  concatenate_apply_piece (0 : Fin S3x4096.rank) [⟨S1x4096, x0⟩, ⟨S1x4096, x1⟩, ⟨S1x4096, x2⟩]
    concatenates_S1x4096_S1x4096_S1x4096_S3x4096_d0 (ix2 (0 : Fin 3) j)
    0 (by show (0 : Nat) < 3; decide) S1x4096 x0 rfl rfl 0 rfl (ix2 (0 : Fin 1) j)
    (fun b hb => match b, hb with | ⟨0, _⟩, hb => absurd rfl hb | ⟨1, _⟩, _ => rfl) rfl

/-- Row 1 of three stacked one-row arrays is the second of them. -/
theorem stack3_read1 (x0 x1 x2 : S1x4096.Idx → EReal) (j : Fin 4096) :
    concatenate S3x4096 0 [⟨S1x4096, x0⟩, ⟨S1x4096, x1⟩, ⟨S1x4096, x2⟩] concatenates_S1x4096_S1x4096_S1x4096_S3x4096_d0
        (ix2 (1 : Fin 3) j) = x1 (ix2 (0 : Fin 1) j) :=
  concatenate_apply_piece (0 : Fin S3x4096.rank) [⟨S1x4096, x0⟩, ⟨S1x4096, x1⟩, ⟨S1x4096, x2⟩]
    concatenates_S1x4096_S1x4096_S1x4096_S3x4096_d0 (ix2 (1 : Fin 3) j)
    1 (by show (1 : Nat) < 3; decide) S1x4096 x1 rfl rfl 1 rfl (ix2 (0 : Fin 1) j)
    (fun b hb => match b, hb with | ⟨0, _⟩, hb => absurd rfl hb | ⟨1, _⟩, _ => rfl) rfl

/-- Row 2 of three stacked one-row arrays is the third of them. -/
theorem stack3_read2 (x0 x1 x2 : S1x4096.Idx → EReal) (j : Fin 4096) :
    concatenate S3x4096 0 [⟨S1x4096, x0⟩, ⟨S1x4096, x1⟩, ⟨S1x4096, x2⟩] concatenates_S1x4096_S1x4096_S1x4096_S3x4096_d0
        (ix2 (2 : Fin 3) j) = x2 (ix2 (0 : Fin 1) j) :=
  concatenate_apply_piece (0 : Fin S3x4096.rank) [⟨S1x4096, x0⟩, ⟨S1x4096, x1⟩, ⟨S1x4096, x2⟩]
    concatenates_S1x4096_S1x4096_S1x4096_S3x4096_d0 (ix2 (2 : Fin 3) j)
    2 (by show (2 : Nat) < 3; decide) S1x4096 x2 rfl rfl 2 rfl (ix2 (0 : Fin 1) j)
    (fun b hb => match b, hb with | ⟨0, _⟩, hb => absurd rfl hb | ⟨1, _⟩, _ => rfl) rfl

/-! ## The three operands -/

/-- The class-logit operand: the argument array flattened. -/
theorem logits_apply (c : Dev nD) (r : Fin 8192) (k : Fin 2) :
    (entry m c main_v0 : S8192x2.Idx → EReal) (ix2 r k) = (m ((c : Thread nD τ).loc main_arg0) : S8x1024x2.Idx → EReal) (ix3 (rowB r) (rowQ r) k) := by
  rw [logits_eq m c]
  exact flatten_rows_apply _ r k

/-- The point operand: the argument array flattened. -/
theorem points_apply (c : Dev nD) (r : Fin 8192) (k : Fin 2) :
    (entry m c main_v1 : S8192x2.Idx → EReal) (ix2 r k) = (m ((c : Thread nD τ).loc main_arg1) : S8x1024x2.Idx → EReal) (ix3 (rowB r) (rowQ r) k) := by
  rw [points_eq m c]
  exact flatten_rows_apply _ r k

/-- Row 0 of the column table: the class ids as real numbers. -/
theorem table_row0 (c : Dev nD) (j : Fin 4096) :
    (entry m c main_v16 : S3x4096.Idx → EReal) (ix2 (0 : Fin 3) j)
      = ((((m ((c : Thread nD τ).loc main_arg2) : S8x512.Idx → BitVec 32) (ix2 (colB j) (colT j))).toInt : ℝ) : EReal) := by
  rw [table_eq m c, stack3_read0]
  exact idRow_read _ j

/-- Row 1 of the column table: ten times the targets' first coordinate. -/
theorem table_row1 (c : Dev nD) (j : Fin 4096) :
    (entry m c main_v16 : S3x4096.Idx → EReal) (ix2 (1 : Fin 3) j)
      = w10 * (m ((c : Thread nD τ).loc main_arg3) : S8x512x2.Idx → EReal) (ix3 (colB j) (colT j) (0 : Fin 2)) := by
  rw [table_eq m c, stack3_read1]
  exact coordRow_read _ (0 : Fin 2) 0 rfl slices_S4096x2_S4096x1_0_0 j

/-- Row 2 of the column table: ten times the targets' second coordinate. -/
theorem table_row2 (c : Dev nD) (j : Fin 4096) :
    (entry m c main_v16 : S3x4096.Idx → EReal) (ix2 (2 : Fin 3) j)
      = w10 * (m ((c : Thread nD τ).loc main_arg3) : S8x512x2.Idx → EReal) (ix3 (colB j) (colT j) (1 : Fin 2)) := by
  rw [table_eq m c, stack3_read2]
  exact coordRow_read _ (1 : Fin 2) 1 rfl slices_S4096x2_S4096x1_0_1 j

end Cert.KernelIdeal.CostOperands

end
-- ==== Proof.CostValue.lean ====
/-
  The cost kernel's result array, read off the frame run: it is `Cert.CostSpec.cost` of the four argument arrays.

  At grid point `t` the kernel writes back block `(R, C)` of the [8192, 4096] cost matrix, `R` of eight row blocks of
  1024 rows and `C` of two column blocks of 2048 columns; its row blocks of the logits and points are block `R` of those
  arrays and its column block is columns `C` of the three-row table. Entry `(p, q)` of what it writes is therefore the
  matrix entry `(1024 R + p, 2048 C + q)`: the blocks are restrictions of ONE matrix `costMat`, the sixteen blocks tile
  it, so the matrix is what the array ends holding. The host reshape after the launch splits the row index
  `r = 1024 b + q` back into batch and query, and the operand arrays are the flattened arguments and the table of
  class ids and ten-fold target points, which turns `costMat` into the specification's `cost`.
-/
import proofs.«403500_j6390911336916_3_alg».proof.Proof.CostFrameIdeal
import proofs.«403500_j6390911336916_3_alg».proof.Proof.CostPay
import proofs.«403500_j6390911336916_3_alg».proof.Proof.CostOperands
import proofs.«403500_j6390911336916_3_alg».proof.Proof.CostSpec
import Idealize.ShloMosaic.Lib.Pipeline.Value
import Idealize.ShloMosaic.Lib.ValueIdx
import Idealize.ShloMosaic.Lib.StableHlo.Run

set_option maxRecDepth 16384

noncomputable section

namespace Cert.KernelIdeal.CostValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.CostFrame Cert.KernelIdeal.CostPay Cert.KernelIdeal.CostOperands Cert.CostSpec

variable (m : (ℓ : Loc nD τ sig) → Buf (Elt Ideal) ℓ) (ρ : Dev nD → PrngReg)

/-! ## One matrix for all blocks -/

/-- The [8192, 4096] cost matrix as a function of the launch's operand arrays: the flattened logits `A0`, the flattened
    points `A1`, the three-row column table `A2`. -/
def costMat (A0 A1 : S8192x2.Idx → EReal) (A2 : S3x4096.Idx → EReal) : S8192x4096.Idx → EReal := fun i =>
  kE (A0 (ix2 (i 0) (0 : Fin 2))) (A0 (ix2 (i 0) (1 : Fin 2))) (A1 (ix2 (i 0) (0 : Fin 2))) (A1 (ix2 (i 0) (1 : Fin 2)))
    (A2 (ix2 (0 : Fin 3) (i 1))) (A2 (ix2 (1 : Fin 3) (i 1))) (A2 (ix2 (2 : Fin 3) (i 1)))

theorem hz : (![0, 0] : Fin 2 → Nat) = fun _ => 0 := funext fun a => by fin_cases a <;> rfl

/-- Entry `(p, q)` of the stored block from the entries of the three loaded blocks. -/
theorem costPay_apply (x0 x1 : Vec Ideal S1024x2 .f32) (x2 : Vec Ideal S3x2048 .f32) (p : Fin 1024) (q : Fin 2048) :
    costPay (F := Ideal) x0 x1 x2 (ix2 p q)
      = kE (x0 (ix2 p (0 : Fin 2))) (x0 (ix2 p (1 : Fin 2))) (x1 (ix2 p (0 : Fin 2))) (x1 (ix2 p (1 : Fin 2)))
          (x2 (ix2 (0 : Fin 3) q)) (x2 (ix2 (1 : Fin 3) q)) (x2 (ix2 (2 : Fin 3) q)) := by
  unfold costPay
  rw [View.ld_unit_zero (S := S1024x2) hz, View.ld_unit_zero (S := S1024x2) hz]
  refine (pay_apply x0 x1 (View.ld x2 rCol0) (View.ld x2 rCol1) (View.ld x2 rCol2) p q).trans ?_
  have e0 : View.ld x2 rCol0 (ix2 (0 : Fin 1) q) = x2 (ix2 (0 : Fin 3) q) :=
    congrArg x2 (funext fun a => Fin.ext (by match a with | ⟨0, _⟩ => rfl | ⟨1, _⟩ => show 0 + 1 * q.val = q.val; omega))
  have e1 : View.ld x2 rCol1 (ix2 (0 : Fin 1) q) = x2 (ix2 (1 : Fin 3) q) :=
    congrArg x2 (funext fun a => Fin.ext (by match a with | ⟨0, _⟩ => rfl | ⟨1, _⟩ => show 0 + 1 * q.val = q.val; omega))
  have e2 : View.ld x2 rCol2 (ix2 (0 : Fin 1) q) = x2 (ix2 (2 : Fin 3) q) :=
    congrArg x2 (funext fun a => Fin.ext (by match a with | ⟨0, _⟩ => rfl | ⟨1, _⟩ => show 0 + 1 * q.val = q.val; omega))
  rw [e0, e1, e2]

/-! ## The blocks are restrictions of the matrix -/

/-- The printed index maps over the grid: the row windows follow the output's row block, the column window its column
    block, and the block indices stay in range. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 1 :=
  (by decide +kernel : ∀ t : Fin grid0.N, _)

/-- Every block of the matrix is some grid point's. -/
theorem idx_onto : ∀ (q0 : Fin 8) (q1 : Fin 2), ∃ t : Fin cfg0.N, win0_3.index t = ![q0.val, q1.val] :=
  (by decide +kernel : ∀ (q0 : Fin 8) (q1 : Fin 2), ∃ t : Fin grid0.N, win0_3.index t = ![q0.val, q1.val])

/-- What grid point `t` writes back is block `t` of the matrix of the operand arrays the launch found. -/
theorem flushed_eq (c : Dev nD) (t : Fin cfg0.N) :
    (dats m 0 c).flushed 3 t = ((cfg0.win 3).blk t).view.read (Elt Ideal) (costMat (V m c main_v0) (V m c main_v1) (V m c main_v16)) := by
  show (cfg0.win 3).cut (grid0.coords t) ((dats m 0 c).after 3 t) = _
  rw [after_3]
  unfold costBlock
  rw [View.canon_unit_zero hz]
  obtain ⟨e0, e1, e2, e3, e4, e5, e6, e7⟩ := idx_facts t
  funext y
  obtain ⟨p, q, rfl⟩ : ∃ (p : Fin 1024) (q : Fin 2048), y = ix2 p q := ⟨y 0, y 1, eq_ix2 y⟩
  show costPay (F := Ideal) (iblk m c 0 t) (iblk m c 1 t) (iblk m c 2 t) (ix2 p q)
    = costMat (V m c main_v0) (V m c main_v1) (V m c main_v16) (((cfg0.win 3).blk t).view.emb (ix2 p q))
  refine (costPay_apply (iblk m c 0 t) (iblk m c 1 t) (iblk m c 2 t) p q).trans ?_
  have hrow (k : Fin 2) : iblk m c 0 t (ix2 p k)
      = (V m c main_v0 : S8192x2.Idx → EReal) (ix2 ((((cfg0.win 3).blk t).view.emb (ix2 p q)) 0) k) := by
    show (V m c main_v0 : S8192x2.Idx → EReal) (((cfg0.win 0).blk t).view.emb (ix2 p k)) = _
    refine congrArg (V m c main_v0 : S8192x2.Idx → EReal) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 2 + 1 * k.val = k.val; omega
  have hpt (k : Fin 2) : iblk m c 1 t (ix2 p k)
      = (V m c main_v1 : S8192x2.Idx → EReal) (ix2 ((((cfg0.win 3).blk t).view.emb (ix2 p q)) 0) k) := by
    show (V m c main_v1 : S8192x2.Idx → EReal) (((cfg0.win 1).blk t).view.emb (ix2 p k)) = _
    refine congrArg (V m c main_v1 : S8192x2.Idx → EReal) (funext fun a => Fin.ext ?_)
    match a with
    | ⟨0, _⟩ => show win0_1.index t (0 : Fin 2) * 1024 + 1 * p.val = win0_3.index t (0 : Fin 2) * 1024 + 1 * p.val; omega
    | ⟨1, _⟩ => show win0_1.index t (1 : Fin 2) * 2 + 1 * k.val = k.val; omega
  have hcol (k : Fin 3) : iblk m c 2 t (ix2 k q)
      = (V m c main_v16 : S3x4096.Idx → EReal) (ix2 k ((((cfg0.win 3).blk t).view.emb (ix2 p q)) 1)) := by
    show (V m c main_v16 : S3x4096.Idx → EReal) (((cfg0.win 2).blk t).view.emb (ix2 k q)) = _
    refine congrArg (V m c main_v16 : S3x4096.Idx → EReal) (funext fun a => Fin.ext ?_)
    match a with
    | ⟨0, _⟩ => show win0_2.index t (0 : Fin 2) * 3 + 1 * k.val = k.val; omega
    | ⟨1, _⟩ => show win0_2.index t (1 : Fin 2) * 2048 + 1 * q.val = win0_3.index t (1 : Fin 2) * 2048 + 1 * q.val; omega
  rw [hrow 0, hrow 1, hpt 0, hpt 1, hcol 0, hcol 1, hcol 2]
  rfl

/-- The matrix is what the output array ends holding. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v17).slice (win0_3.rect t)).set ↔ _
  rw [View.set_slice_whole, Rect.mem_set_unit]
  exact Iff.rfl

/-- Every entry of the matrix lies in the block of some grid point that writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

theorem final3 (c : Dev nD) : (dats m 0 c).arrAt 3 cfg0.N = costMat (V m c main_v0) (V m c main_v1) (V m c main_v16) :=
  (dats m 0 c).arrAt_eq_of_cover 3 (costMat (V m c main_v0) (V m c main_v1) (V m c main_v16)) (fun t _ => flushed_eq m c t) cover

/-! ## The reshape after the launch, and the specification -/

/-- The result buffer after the host reshape: the matrix with its row index split into batch and query. -/
theorem tail_eq (c : Dev nD) :
    Pipeline.afterTail₀ cfgs (dats m) 0 (V0 m) [hostOps1] c main_v18
      = shapeCast S8x1024x4096 ((dats m 0 c).arrAt 3 cfg0.N) shapeCasts_S8192x4096_S8x1024x4096 := by
  unfold Pipeline.afterTail₀
  show StableHlo.after hostOps1 _ (Proc.devRef .tc main_v18) = _
  after_results
  rw [Pipeline.withArrays_arr spec0 launch0.win.arr_inj c _ _ 3]
  rfl

/-- The matrix of the operand arrays, reshaped, is the specification's cost array of the argument arrays. -/
theorem reshaped_eq_cost (c : Dev nD) :
    shapeCast S8x1024x4096 (costMat (V m c main_v0) (V m c main_v1) (V m c main_v16)) shapeCasts_S8192x4096_S8x1024x4096
      = cost (m ((c : Thread nD τ).loc main_arg0)) (m ((c : Thread nD τ).loc main_arg1)) (m ((c : Thread nD τ).loc main_arg2)) (m ((c : Thread nD τ).loc main_arg3)) := by
  funext i
  obtain ⟨b, q, j, rfl⟩ : ∃ (b : Fin 8) (q : Fin 1024) (j : Fin 4096), i = ix3 b q j := ⟨i 0, i 1, i 2, eq_ix3 i⟩
  have hb : b.val < 8 := b.isLt
  have hq : q.val < 1024 := q.isLt
  have hj : j.val < 4096 := j.isLt
  have hr : b.val * 1024 + q.val < 8192 := by omega
  refine (shapeCast_apply _ shapeCasts_S8192x4096_S8x1024x4096 (ix3 b q j) (ix2 (⟨b.val * 1024 + q.val, hr⟩ : Fin 8192) j)
    (by rewrite [Shape.rowMajor_val_two, Shape.rowMajor_val_three]
        show (b.val * 1024 + q.val) * 4096 + j.val = (b.val * 1024 + q.val) * 4096 + j.val; rfl)).trans ?_
  have eB : rowB (⟨b.val * 1024 + q.val, hr⟩ : Fin 8192) = b := Fin.ext (by show (b.val * 1024 + q.val) / 1024 = b.val; omega)
  have eQ : rowQ (⟨b.val * 1024 + q.val, hr⟩ : Fin 8192) = q := Fin.ext (by show (b.val * 1024 + q.val) % 1024 = q.val; omega)
  show kE _ _ _ _ _ _ _ = kEntry _ _ _ _ _ _ _
  rw [kEntry_eq_kE]
  have l0 := logits_apply m c ⟨b.val * 1024 + q.val, hr⟩ (0 : Fin 2)
  have l1 := logits_apply m c ⟨b.val * 1024 + q.val, hr⟩ (1 : Fin 2)
  have p0 := points_apply m c ⟨b.val * 1024 + q.val, hr⟩ (0 : Fin 2)
  have p1 := points_apply m c ⟨b.val * 1024 + q.val, hr⟩ (1 : Fin 2)
  rw [eB, eQ] at l0 l1 p0 p1
  exact congr (congr (congr (congr (congr (congr (congrArg kE l0) l1) p0) p1) (table_row0 m c j)) (table_row1 m c j)) (table_row2 m c j)

/-- THE KERNEL'S RUN with its result named: every weakly fair execution terminates, the result buffer holds the cost
    array of the argument arrays, and the argument arrays end unchanged. -/
theorem kernel_run : θ_run defs (onTc (τ := τ) (main (F := Ideal))) ⟨m, fun _ => 0, ρ⟩ (fun r => ∀ c : Dev nD,
      r.2.mem ((c.tc : Thread nD τ).loc main_v18)
        = cost (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v18 (Pipeline.mem_restRefs_of main_v18 (by decide) (by decide))).trans
        ((tail_eq m c).trans ((congrArg (fun A => shapeCast S8x1024x4096 A shapeCasts_S8192x4096_S8x1024x4096) (final3 m c)).trans (reshaped_eq_cost m c))),
     ((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c)⟩)
    (run_main m ρ)

end Cert.KernelIdeal.CostValue

end
-- ==== Proof.RefCost.lean ====
/-
  The reference's result array, read one entry at a time, is the cost array `Cert.CostSpec.cost` of the argument
  arrays, provided every float entry is a real number and every class id is the word 0 or the word 1.

  Entry `(b, q, j)` of the reference reads row `b · 1024 + q` of the flattened predictions and column `j` of the
  flattened targets: twice-five times the L1 distance of the two points, plus twice the difference of the focal
  terms gathered at the target's class id (an id in {0, 1} is not negative, so it is gathered as it stands, and it is
  in range, so the gather's clamp does nothing). That is `CostSpec.rEntry` at the logit the id picks, which
  `CostSpec.kEntry_eq_rEntry` identifies with the cost array's entry.
-/
import proofs.«403500_j6390911336916_3_alg».proof.Proof.Gen.ReferenceIdeal.Read
import proofs.«403500_j6390911336916_3_alg».proof.Proof.CostSpec
import Idealize.ShloMosaic.Lib.ValueIdx

noncomputable section

namespace Cert.RefCost

open Idealize.ShloMosaic Idealize.ShloMosaic.ValueIdx Cert.ReferenceIdeal Cert.ReferenceIdeal.Read

open Cert.CostSpec

/-! ## The logistic stage and the two focal stages, at an index of the flattened predictions -/

/-- Stage 6 is the reference's `σ` of the logit the reshape reads. -/
theorem v6_at (x0 : (⟨S8x1024x2, .f32⟩ : BufTy).Contents (Elt Ideal)) (i : S8192x2.Idx) :
    val_main_v6 (F := Ideal) x0 i = sigR (x0 (idx_main_v0 i)) := by
  rw [val_main_v6_apply, val_main_v5_apply, val_main_cst_0_apply, val_main_v4_apply, val_main_v3_apply,
    val_main_cst_apply, val_main_v2_apply, val_main_v1_apply, val_main_v0_apply]
  rfl

/-- Stage 31 is the positive-class focal term of that logit. -/
theorem v31_at (x0 : (⟨S8x1024x2, .f32⟩ : BufTy).Contents (Elt Ideal)) (i : S8192x2.Idx) :
    val_main_v31 (F := Ideal) x0 i = posR (x0 (idx_main_v0 i)) := by
  rw [val_main_v31_apply, val_main_v26_apply, val_main_v25_apply, val_main_cst_7_apply, val_main_v24_apply,
    val_main_v22_apply, val_main_v21_apply, val_main_cst_5_apply, val_main_v23_apply, val_main_cst_6_apply,
    val_main_v30_apply, val_main_v29_apply, val_main_v28_apply, val_main_v27_apply, val_main_cst_8_apply, v6_at]
  rfl

/-- Stage 20 is the negative-class focal term of that logit. -/
theorem v20_at (x0 : (⟨S8x1024x2, .f32⟩ : BufTy).Contents (Elt Ideal)) (i : S8192x2.Idx) :
    val_main_v20 (F := Ideal) x0 i = negR (x0 (idx_main_v0 i)) := by
  rw [val_main_v20_apply, val_main_v13_apply, val_main_v12_apply, val_main_cst_2_apply, val_main_v11_apply,
    val_main_v10_apply, val_main_cst_1_apply, val_main_v19_apply, val_main_v18_apply, val_main_v17_apply,
    val_main_v15_apply, val_main_v14_apply, val_main_cst_3_apply, val_main_v16_apply, val_main_cst_4_apply, v6_at]
  rfl

/-! ## The gather of a column function

The record gathers whole columns of a two-column operand: result entry `(r, j)` is the operand's row `r` at the
column the `j`-th start index names, read as a signed integer and clamped into `[0, 1]`. -/

/-- The gather record of the program. -/
abbrev gd : GatherDims S8192x2 S4096x1 S8192x4096 := gather_S8192x2_S4096x1_S8192x4096_0_1_n_n_1_1_81921

/-- The gather read at `(r, j)`. -/
theorem gather_col {α : Type} (f : S8192x2.Idx → α) (idx : IVec S4096x1 32) (r : Fin 8192) (j : Fin 4096) :
    Host.gather gd f idx (ix2 r j)
      = f (ix2 r (⟨min (idx (ix2 j (0 : Fin 1))).toInt.toNat 1, by omega⟩ : Fin 2)) := by
  unfold Host.gather
  congr 1
  funext a
  refine Fin.ext ?_
  show gd.start (ix2 r j) idx a + gd.batchCoord (ix2 r j) a + gd.offCoord (ix2 r j) a = _
  rw [GatherDims.batchCoord_eq_zero _ _ _ List.not_mem_nil]
  match a with
  | ⟨0, _⟩ =>
    have hs : gd.start (ix2 r j) idx ⟨0, by decide⟩ = 0 := by
      unfold GatherDims.start
      rw [dif_neg (by decide)]
    have ho : gd.offCoord (ix2 r j) ⟨0, by decide⟩ = r.val := by
      unfold GatherDims.offCoord
      rw [dif_pos (by decide)]
      rfl
    rw [hs, ho, Nat.zero_add]
  | ⟨1, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨1, by decide⟩ : Fin 2) ∈ gd.startIndexMap from List.mem_singleton.mpr rfl)]
    have hsi : gd.siIdx (ix2 r j) ⟨List.idxOf (⟨1, by decide⟩ : Fin 2) gd.startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-! ## The start indices: a class id in {0, 1} is gathered as it stands -/

/-- A word that is 0 or 1 is not negative, so the wrap-around select returns it. -/
theorem select_id (c : BitVec 32) (hc : c = 0#32 ∨ c = 1#32) :
    Scalar.select (IntOp.cmpi .slt c 0#32) (IntOp.addi c 2#32) c = c := by
  rcases hc with rfl | rfl <;> rfl

/-- Read as a signed integer and clamped to `[0, 1]`, such a word is the column it names. -/
theorem clamp_id (c : BitVec 32) (hc : c = 0#32 ∨ c = 1#32) :
    min c.toInt.toNat 1 = if c = 0#32 then 0 else 1 := by
  rcases hc with rfl | rfl <;> decide

/-- The flattened class ids read the target `(j / 512, j % 512)`. -/
theorem idx8_at (j : Fin 4096) : idx_main_v8 (ix1 j) = ix2 (Cert.CostSpec.colB j) (Cert.CostSpec.colT j) := by
  funext a
  match a with
  | ⟨0, _⟩ => rfl
  | ⟨1, _⟩ => rfl

/-- Stage 37, the first gather's start indices, at `(j, 0)`: the class id of target `j`. -/
theorem v37_at (x2 : (⟨S8x512, .i32⟩ : BufTy).Contents (Elt Ideal)) (h2 : ∀ i, x2 i = 0#32 ∨ x2 i = 1#32) (j : Fin 4096) :
    val_main_v37 (F := Ideal) x2 (ix2 j (0 : Fin 1)) = x2 (ix2 (Cert.CostSpec.colB j) (Cert.CostSpec.colT j)) := by
  have hi : idx_main_v37 (ix2 j (0 : Fin 1)) = ix1 j := by
    funext a
    match a with
    | ⟨0, _⟩ => rfl
  rw [val_main_v37_apply, hi, val_main_v36_apply, val_main_v33_apply, val_main_v32_apply, val_main_c_apply,
    val_main_v35_apply, val_main_v34_apply, val_main_c_9_apply, val_main_v8_apply, idx8_at]
  exact select_id _ (h2 _)

/-- Stage 44, the second gather's start indices, at `(j, 0)`: the same class id. -/
theorem v44_at (x2 : (⟨S8x512, .i32⟩ : BufTy).Contents (Elt Ideal)) (h2 : ∀ i, x2 i = 0#32 ∨ x2 i = 1#32) (j : Fin 4096) :
    val_main_v44 (F := Ideal) x2 (ix2 j (0 : Fin 1)) = x2 (ix2 (Cert.CostSpec.colB j) (Cert.CostSpec.colT j)) := by
  have hi : idx_main_v44 (ix2 j (0 : Fin 1)) = ix1 j := by
    funext a
    match a with
    | ⟨0, _⟩ => rfl
  rw [val_main_v44_apply, hi, val_main_v43_apply, val_main_v40_apply, val_main_v39_apply, val_main_c_10_apply,
    val_main_v42_apply, val_main_v41_apply, val_main_c_11_apply, val_main_v8_apply, idx8_at]
  exact select_id _ (h2 _)

/-! ## Rows and columns of the flattened arrays -/

/-- Prediction `(b, q)` is row `b · 1024 + q` of the flattened predictions. -/
def row (b : Fin 8) (q : Fin 1024) : Fin 8192 := ⟨b.val * 1024 + q.val, by have := b.isLt; have := q.isLt; omega⟩

/-- The final reshape reads entry `(b, q, j)` at row `b · 1024 + q`, column `j`. -/
theorem idx61_at (b : Fin 8) (q : Fin 1024) (j : Fin 4096) : idx_main_v61 (ix3 b q j) = ix2 (row b q) j := by
  have hb := b.isLt; have hq := q.isLt; have hj := j.isLt
  funext a
  match a with
  | ⟨0, _⟩ =>
    refine Fin.ext ?_
    show ((b.val * 1024 + q.val) * 4096 + j.val) / 4096 = b.val * 1024 + q.val
    omega
  | ⟨1, _⟩ =>
    refine Fin.ext ?_
    show ((b.val * 1024 + q.val) * 4096 + j.val) % 4096 = j.val
    omega

/-- Column `c` of row `b · 1024 + q` of the flattened class logits is `pred_class (b, q, c)`. -/
theorem idx0_at (b : Fin 8) (q : Fin 1024) (c : Fin 2) : idx_main_v0 (ix2 (row b q) c) = ix3 b q c := by
  have hb := b.isLt; have hq := q.isLt; have hc := c.isLt
  funext a
  match a with
  | ⟨0, _⟩ =>
    refine Fin.ext ?_
    show ((b.val * 1024 + q.val) * 2 + c.val) / 2048 = b.val
    omega
  | ⟨1, _⟩ =>
    refine Fin.ext ?_
    show ((b.val * 1024 + q.val) * 2 + c.val) / 2 % 1024 = q.val
    omega
  | ⟨2, _⟩ =>
    refine Fin.ext ?_
    show ((b.val * 1024 + q.val) * 2 + c.val) % 2 = c.val
    omega

/-- Coordinate `k` of row `b · 1024 + q` of the flattened predicted points is `pred_points (b, q, k)`. -/
theorem idx7_at (b : Fin 8) (q : Fin 1024) (k : Fin 2) : idx_main_v7 (ix2 (row b q) k) = ix3 b q k := by
  have hb := b.isLt; have hq := q.isLt; have hk := k.isLt
  funext a
  match a with
  | ⟨0, _⟩ =>
    refine Fin.ext ?_
    show ((b.val * 1024 + q.val) * 2 + k.val) / 2048 = b.val
    omega
  | ⟨1, _⟩ =>
    refine Fin.ext ?_
    show ((b.val * 1024 + q.val) * 2 + k.val) / 2 % 1024 = q.val
    omega
  | ⟨2, _⟩ =>
    refine Fin.ext ?_
    show ((b.val * 1024 + q.val) * 2 + k.val) % 2 = k.val
    omega

/-- Coordinate `k` of row `j` of the flattened target points is `gt_points (j / 512, j % 512, k)`. -/
theorem idx9_at (j : Fin 4096) (k : Fin 2) :
    idx_main_v9 (ix2 j k) = ix3 (Cert.CostSpec.colB j) (Cert.CostSpec.colT j) k := by
  have hj := j.isLt; have hk := k.isLt
  funext a
  match a with
  | ⟨0, _⟩ =>
    refine Fin.ext ?_
    show (j.val * 2 + k.val) / 1024 = j.val / 512
    omega
  | ⟨1, _⟩ =>
    refine Fin.ext ?_
    show (j.val * 2 + k.val) / 2 % 512 = j.val % 512
    omega
  | ⟨2, _⟩ =>
    refine Fin.ext ?_
    show (j.val * 2 + k.val) % 2 = k.val
    omega

/-! ## The L1 half -/

/-- Stage 52 at `(r, j, k)`: the distance of coordinate `k` of predicted point `r` and target point `j`. -/
theorem v52_at (x1 : (⟨S8x1024x2, .f32⟩ : BufTy).Contents (Elt Ideal)) (x3 : (⟨S8x512x2, .f32⟩ : BufTy).Contents (Elt Ideal))
    (r : Fin 8192) (j : Fin 4096) (k : Fin 2) :
    val_main_v52 (F := Ideal) x1 x3 (ix3 r j k)
      = absE (x1 (idx_main_v7 (ix2 r k)) - x3 (idx_main_v9 (ix2 j k))) := by
  have hp : idx_main_v47 (idx_main_v49 (ix3 r j k)) = ix2 r k := by
    funext a
    match a with
    | ⟨0, _⟩ => rfl
    | ⟨1, _⟩ => rfl
  have hg : idx_main_v48 (idx_main_v50 (ix3 r j k)) = ix2 j k := by
    funext a
    match a with
    | ⟨0, _⟩ => rfl
    | ⟨1, _⟩ => rfl
  rw [val_main_v52_apply, val_main_v51_apply, val_main_v49_apply, val_main_v47_apply, val_main_v7_apply, hp,
    val_main_v50_apply, val_main_v48_apply, val_main_v9_apply, hg]
  rfl

/-- Stage 57 at `(r, j)`: five times twice the L1 distance of the two points. -/
theorem v57_at (x1 : (⟨S8x1024x2, .f32⟩ : BufTy).Contents (Elt Ideal)) (x3 : (⟨S8x512x2, .f32⟩ : BufTy).Contents (Elt Ideal))
    (r : Fin 8192) (j : Fin 4096) :
    val_main_v57 (F := Ideal) x1 x3 (ix2 r j)
      = w5 * (w2 * (w0 + (absE (x1 (idx_main_v7 (ix2 r (0 : Fin 2))) - x3 (idx_main_v9 (ix2 j (0 : Fin 2))))
          + absE (x1 (idx_main_v7 (ix2 r (1 : Fin 2))) - x3 (idx_main_v9 (ix2 j (1 : Fin 2))))))) := by
  have hk : ∀ k : Fin 2, idx_main_v53 (ix2 r j) k = ix3 r j k := by
    intro k
    funext a
    match a with
    | ⟨0, _⟩ => rfl
    | ⟨1, _⟩ => rfl
    | ⟨2, _⟩ => rfl
  rw [val_main_v57_apply, val_main_v56_apply, val_main_cst_14_apply, val_main_v55_apply, val_main_v54_apply,
    val_main_cst_13_apply, val_main_v53_apply, val_main_cst_12_apply, Fin.sum_univ_two, hk, hk, v52_at, v52_at]
  rfl

/-! ## The focal half -/

/-- The column a class id in {0, 1} names. -/
def cls (c : BitVec 32) : Fin 2 := if c = 0#32 then 0 else 1

/-- The gather read at `(r, j)` when the `j`-th start index is a word `c` in {0, 1}: row `r`, column `c`. -/
theorem gather_sel {α : Type} (f : S8192x2.Idx → α) (idx : IVec S4096x1 32) (r : Fin 8192) (j : Fin 4096)
    (c : BitVec 32) (hidx : idx (ix2 j (0 : Fin 1)) = c) (hc : c = 0#32 ∨ c = 1#32) :
    Host.gather gd f idx (ix2 r j) = f (ix2 r (cls c)) := by
  rw [gather_col]
  congr 2
  refine Fin.ext ?_
  show min (idx (ix2 j (0 : Fin 1))).toInt.toNat 1 = (cls c).val
  rw [hidx, clamp_id c hc]
  unfold cls
  split <;> rfl

/-- Stage 38 at `(r, j)`: the positive-class focal term of row `r` at the class id of target `j`. -/
theorem v38_at (x0 : (⟨S8x1024x2, .f32⟩ : BufTy).Contents (Elt Ideal)) (x2 : (⟨S8x512, .i32⟩ : BufTy).Contents (Elt Ideal))
    (h2 : ∀ i, x2 i = 0#32 ∨ x2 i = 1#32) (r : Fin 8192) (j : Fin 4096) :
    val_main_v38 (F := Ideal) x0 x2 (ix2 r j)
      = posR (x0 (idx_main_v0 (ix2 r (cls (x2 (ix2 (Cert.CostSpec.colB j) (Cert.CostSpec.colT j))))))) := by
  unfold val_main_v38
  rw [gather_sel _ _ r j _ (v37_at x2 h2 j) (h2 _), v31_at]

/-- Stage 45 at `(r, j)`: the negative-class focal term of row `r` at the class id of target `j`. -/
theorem v45_at (x0 : (⟨S8x1024x2, .f32⟩ : BufTy).Contents (Elt Ideal)) (x2 : (⟨S8x512, .i32⟩ : BufTy).Contents (Elt Ideal))
    (h2 : ∀ i, x2 i = 0#32 ∨ x2 i = 1#32) (r : Fin 8192) (j : Fin 4096) :
    val_main_v45 (F := Ideal) x0 x2 (ix2 r j)
      = negR (x0 (idx_main_v0 (ix2 r (cls (x2 (ix2 (Cert.CostSpec.colB j) (Cert.CostSpec.colT j))))))) := by
  unfold val_main_v45
  rw [gather_sel _ _ r j _ (v44_at x2 h2 j) (h2 _), v20_at]

/-- Stage 59 at `(r, j)`: twice the focal difference of the logit the class id picks. -/
theorem v59_at (x0 : (⟨S8x1024x2, .f32⟩ : BufTy).Contents (Elt Ideal)) (x2 : (⟨S8x512, .i32⟩ : BufTy).Contents (Elt Ideal))
    (h2 : ∀ i, x2 i = 0#32 ∨ x2 i = 1#32) (r : Fin 8192) (j : Fin 4096) :
    val_main_v59 (F := Ideal) x0 x2 (ix2 r j)
      = w2 * (posR (x0 (idx_main_v0 (ix2 r (cls (x2 (ix2 (Cert.CostSpec.colB j) (Cert.CostSpec.colT j)))))))
          - negR (x0 (idx_main_v0 (ix2 r (cls (x2 (ix2 (Cert.CostSpec.colB j) (Cert.CostSpec.colT j)))))))) := by
  rw [val_main_v59_apply, val_main_v58_apply, val_main_cst_15_apply, val_main_v46_apply, v38_at x0 x2 h2,
    v45_at x0 x2 h2]
  rfl

/-! ## Assembly -/

/-- Entry `(b, q, j)` of the reference's result is the reference's spelling of the cost of prediction `(b, q)`
    against target `j`, at the logit the target's class id picks. -/
theorem v61_at (x0 x1 : (⟨S8x1024x2, .f32⟩ : BufTy).Contents (Elt Ideal)) (x2 : (⟨S8x512, .i32⟩ : BufTy).Contents (Elt Ideal))
    (x3 : (⟨S8x512x2, .f32⟩ : BufTy).Contents (Elt Ideal)) (h2 : ∀ i, x2 i = 0#32 ∨ x2 i = 1#32)
    (b : Fin 8) (q : Fin 1024) (j : Fin 4096) :
    val_main_v61 (F := Ideal) x0 x1 x2 x3 (ix3 b q j)
      = rEntry (x0 (ix3 b q (cls (x2 (ix2 (Cert.CostSpec.colB j) (Cert.CostSpec.colT j))))))
          (x1 (ix3 b q (0 : Fin 2))) (x1 (ix3 b q (1 : Fin 2)))
          (x3 (ix3 (Cert.CostSpec.colB j) (Cert.CostSpec.colT j) (0 : Fin 2)))
          (x3 (ix3 (Cert.CostSpec.colB j) (Cert.CostSpec.colT j) (1 : Fin 2))) := by
  rw [val_main_v61_apply, idx61_at, val_main_v60_apply, v57_at, v59_at x0 x2 h2, idx7_at, idx7_at, idx9_at, idx9_at,
    idx0_at]
  rfl

/-- The reference's result stage is the cost array, on real float entries and class ids in {0, 1}. -/
theorem ref_eq_cost (x0 x1 : (⟨S8x1024x2, .f32⟩ : BufTy).Contents (Elt Ideal)) (x2 : (⟨S8x512, .i32⟩ : BufTy).Contents (Elt Ideal))
    (x3 : (⟨S8x512x2, .f32⟩ : BufTy).Contents (Elt Ideal))
    (h0 : ∀ i, ∃ r : ℝ, x0 i = (r : EReal)) (h1 : ∀ i, ∃ r : ℝ, x1 i = (r : EReal))
    (h2 : ∀ i, x2 i = 0#32 ∨ x2 i = 1#32) (h3 : ∀ i, ∃ r : ℝ, x3 i = (r : EReal)) :
    val_main_v61 (F := Ideal) x0 x1 x2 x3 = Cert.CostSpec.cost x0 x1 x2 x3 := by
  funext i
  obtain ⟨b, q, j, rfl⟩ : ∃ b q j, i = ix3 b q j := ⟨i 0, i 1, i 2, eq_ix3 i⟩
  rw [v61_at x0 x1 x2 x3 h2]
  show _ = kEntry (x0 (ix3 b q (0 : Fin 2))) (x0 (ix3 b q (1 : Fin 2))) (x1 (ix3 b q (0 : Fin 2))) (x1 (ix3 b q (1 : Fin 2)))
    ((((x2 (ix2 (Cert.CostSpec.colB j) (Cert.CostSpec.colT j))).toInt : ℝ)) : EReal)
    (x3 (ix3 (Cert.CostSpec.colB j) (Cert.CostSpec.colT j) (0 : Fin 2)))
    (x3 (ix3 (Cert.CostSpec.colB j) (Cert.CostSpec.colT j) (1 : Fin 2)))
  obtain ⟨a0, ha0⟩ := h0 (ix3 b q (0 : Fin 2))
  obtain ⟨a1, ha1⟩ := h0 (ix3 b q (1 : Fin 2))
  obtain ⟨p0, hp0⟩ := h1 (ix3 b q (0 : Fin 2))
  obtain ⟨p1, hp1⟩ := h1 (ix3 b q (1 : Fin 2))
  obtain ⟨g0, hg0⟩ := h3 (ix3 (Cert.CostSpec.colB j) (Cert.CostSpec.colT j) (0 : Fin 2))
  obtain ⟨g1, hg1⟩ := h3 (ix3 (Cert.CostSpec.colB j) (Cert.CostSpec.colT j) (1 : Fin 2))
  have hc := h2 (ix2 (Cert.CostSpec.colB j) (Cert.CostSpec.colT j))
  have hx : x0 (ix3 b q (cls (x2 (ix2 (Cert.CostSpec.colB j) (Cert.CostSpec.colT j)))))
      = if x2 (ix2 (Cert.CostSpec.colB j) (Cert.CostSpec.colT j)) = 0#32 then (a0 : EReal) else (a1 : EReal) := by
    unfold cls
    split
    · exact ha0
    · exact ha1
  rw [hx, hp0, hp1, hg0, hg1, ha0, ha1]
  exact (kEntry_eq_rEntry a0 a1 p0 p1 g0 g1 _ hc).symm

end Cert.RefCost

end
-- ==== Proof.PreCost.lean ====
/-
  What the precondition says of the argument arrays at the ideal instance: every entry of the three float arrays is a
  real number (its absolute value is below +∞), and every class id is the word 0 or the word 1 (it is at least 0
  and below 2 as a signed integer).
-/
import proofs.«403500_j6390911336916_3_alg».proof.Pre_finite_inputs
import proofs.«403500_j6390911336916_3_alg».proof.Proof.CostSpec
import Idealize.ShloMosaic.PureOps.Ideal
import Idealize.ShloMosaic.Lib.ReduceAll
import Idealize.ShloMosaic.Lib.ValueIdx

noncomputable section

namespace Cert.PreCost

open Idealize.ShloMosaic Idealize.ShloMosaic.ValueIdx Cert.Pre_finite_inputs

/-- The scalar shape has exactly one index: there is no axis to disagree on. -/
instance : Subsingleton S_.Idx := ⟨fun a b => funext fun d => d.elim0⟩

/-- The pattern with all exponent bits set and a zero mantissa denotes +∞. -/
theorem inf_word : Ideal.ofBits .f32 0x7F800000#32 = (⊤ : EReal) := Cert.CostSpec.wInf_eq

/-- An extended real whose absolute value max x (−x) lies strictly below +∞ is neither +∞ nor −∞, so it is a real. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- The all-reduction of the elementwise test |a| < +∞ being 1 makes every entry of a a real number. -/
theorem real_of_all {s : Shape} {axes : List (Fin s.rank)} (a : FVec Ideal s .f32)
    (bc : S_.BroadcastsInDim s (![] : Fin 0 → Fin s.rank)) (red : s.ReducesTo axes S_) (h0 : 0 < S_.numel)
    (init : IVec S_ 1) (j : S_.Idx)
    (h : Host.reduce IntOp.andi (cmpf .olt (Host.absf a) (broadcastInDim s ![] bc (constant S_ .f32 0x7F800000#32)))
      init red h0 j = 1#1) :
    ∀ i, ∃ r : ℝ, a i = (r : EReal) := by
  intro i
  have e := Host.reduce_andi_all _ _ red h0 j h i
  exact real_of_abs_lt_inf (a i) e

/-- A 32-bit word that is at least 0 and below 2 as a signed integer is the word 0 or the word 1. -/
theorem bit_of_range (w : BitVec 32) (h0 : IntOp.cmpi .sge w 0#32 = 1#1) (h2 : IntOp.cmpi .slt w 2#32 = 1#1) :
    w = 0#32 ∨ w = 1#32 := by
  rw [IntOp.cmpi_sge] at h0
  rw [IntOp.cmpi_slt] at h2
  have z : (0#32 : BitVec 32).toInt = 0 := by decide
  have o : (1#32 : BitVec 32).toInt = 1 := by decide
  have t : (2#32 : BitVec 32).toInt = 2 := by decide
  rw [z] at h0
  rw [t] at h2
  have hw : w.toInt = 0 ∨ w.toInt = 1 := by omega
  rcases hw with e | e
  · exact Or.inl (BitVec.eq_of_toInt_eq (by rw [e, z]))
  · exact Or.inr (BitVec.eq_of_toInt_eq (by rw [e, o]))

/-- From the printed precondition being all ones: the float entries are real numbers and the class ids are 0 or 1. -/
theorem of_pre [Cert.Pre_finite_inputs.Facts] (a0 a1 : FVec Ideal S8x1024x2 .f32) (a2 : IVec S8x512 32) (a3 : FVec Ideal S8x512x2 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, a2 i = 0#32 ∨ a2 i = 1#32) ∧ (∀ i, ∃ r : ℝ, a3 i = (r : EReal)) := by
  have h' := congrFun h ValueIdx.ix0
  dsimp only [Cert.Pre_finite_inputs.fn, Cert.Pre_finite_inputs.fn_part1] at h'
  -- a conjunction of bits at the one scalar index is 1 exactly when both bits are
  have split : ∀ (x y : IVec S_ 1) (k : S_.Idx), andi x y k = 1#1 → x k = 1#1 ∧ y k = 1#1 :=
    fun _ _ _ e => IntOp.andi_eq_one.1 e
  obtain ⟨h4, hlt⟩ := split _ _ _ h'
  obtain ⟨h3, hge⟩ := split _ _ _ h4
  obtain ⟨h2, e3⟩ := split _ _ _ h3
  obtain ⟨e0, e1⟩ := split _ _ _ h2
  refine ⟨real_of_all a0 _ _ _ _ _ e0, real_of_all a1 _ _ _ _ _ e1, fun i => ?_, real_of_all a3 _ _ _ _ _ e3⟩
  -- both signed comparisons hold at every class id; the broadcast constants read 0 and 2 everywhere
  have g := Host.reduce_andi_all _ _ _ _ _ hge i
  have l := Host.reduce_andi_all _ _ _ _ _ hlt i
  exact bit_of_range (a2 i) g l

end Cert.PreCost

end
-- ==== Proof.lean ====
/-
  The certificate of the bipartite-matching cost kernel against its jnp reference, over the extended reals.

  Both programs compute, for every prediction `(b, q)` and every target `j` of the flattened batch, the cost
  `5 · (4/2) · L1(points) + 2 · (focal_pos − focal_neg)(logit of the target's class)`. The kernel scales the points by
  ten before taking the L1 distance and replaces the lookup of the class-`id` logit by the interpolation
  `d₀ + id · (d₁ − d₀)`; on real inputs and class ids in {0, 1} — the precondition — that is the same number
  (`CostSpec.kEntry_eq_rEntry`). The three frames: the kernel program's, at both instances, is the launch's frame run
  (`CostFrame.frame`); the reference's is its run with the result dropped. The idealization rewrote nothing, so
  there is nothing to preserve. The algebraic claim: the kernel's result array is `CostSpec.cost` of the arguments
  (`CostValue.kernel_run`), and so is the reference's once the precondition is decoded (`PreCost.of_pre`,
  `RefCost.ref_eq_cost`).
-/
import proofs.«403500_j6390911336916_3_alg».proof.Defs
import proofs.«403500_j6390911336916_3_alg».proof.Proof.Gen.Kernel
import proofs.«403500_j6390911336916_3_alg».proof.Proof.Gen.KernelIdeal
import proofs.«403500_j6390911336916_3_alg».proof.Proof.Gen.ReferenceIdeal
import proofs.«403500_j6390911336916_3_alg».proof.Proof.Gen.Pre_finite_inputs
import proofs.«403500_j6390911336916_3_alg».proof.Proof.Gen.ReferenceIdeal.Run
import proofs.«403500_j6390911336916_3_alg».proof.Proof.Gen.ReferenceIdeal.Read
import proofs.«403500_j6390911336916_3_alg».proof.Proof.CostFrameBits
import proofs.«403500_j6390911336916_3_alg».proof.Proof.CostFrameIdeal
import proofs.«403500_j6390911336916_3_alg».proof.Proof.CostValue
import proofs.«403500_j6390911336916_3_alg».proof.Proof.RefCost
import proofs.«403500_j6390911336916_3_alg».proof.Proof.PreCost
import Idealize.ShloMosaic.Adequacy
import Idealize.ShloMosaic.Init

noncomputable section

namespace Cert.Proof

open Idealize.ShloMosaic Idealize.ShloMosaic.TcCoe Idealize.SL.Sem

/-- The word-level program terminates, faults nowhere and leaves its arguments unchanged, from any memory. -/
theorem frame_kernel : @Cert.frame_Kernel Cert.Kernel.Gen.facts Cert.Pre_finite_inputs.Gen.facts :=
  fun m ρ _ => Cert.Kernel.CostFrame.frame (F := Bits) m ρ

/-- So does the idealized program. -/
theorem frame_kernelIdeal : @Cert.frame_KernelIdeal Cert.KernelIdeal.Gen.facts Cert.Pre_finite_inputs.Gen.facts :=
  fun m ρ _ => Cert.KernelIdeal.CostFrame.frame (F := Ideal) m ρ

/-- The reference is host operations only: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments, both programs end with the cost array of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.CostValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2]
  obtain ⟨h0, h1, h2, h3⟩ := @Cert.PreCost.of_pre Cert.Pre_finite_inputs.Gen.facts _ _ _ _ (hpre c)
  exact Cert.RefCost.ref_eq_cost _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
